-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S16x32 : Shape := ⟨2, ![16, 32]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16x32 .f32) (main_arg5 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S32x128 .f32) (main_arg3 : FVec F S32 .f32) (main_arg4 : FVec F S16x32 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S16x32 : Shape := ⟨2, ![16, 32]⟩
abbrev S16 : Shape := ⟨1, ![16]⟩
abbrev S128x32 : Shape := ⟨2, ![128, 32]⟩
abbrev S32x16 : Shape := ⟨2, ![32, 16]⟩
abbrev S1x32 : Shape := ⟨2, ![1, 32]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S10000x32 : Shape := ⟨2, ![10000, 32]⟩
abbrev S400x32 : Shape := ⟨2, ![400, 32]⟩

abbrev nBuf : Space → Nat
  | .hbm => 12
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S128x32, .f32⟩
  | .hbm, ⟨7, _⟩ => ⟨S32x16, .f32⟩
  | .hbm, ⟨8, _⟩ => ⟨S1x32, .f32⟩
  | .hbm, ⟨9, _⟩ => ⟨S1x16, .f32⟩
  | .hbm, ⟨10, _⟩ => ⟨S10000x16, .f32⟩
  | .hbm, ⟨11, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S1x32, .f32⟩
  | .local _ .vmem, ⟨3, _⟩ => ⟨S32x16, .f32⟩
  | .local _ .vmem, ⟨4, _⟩ => ⟨S1x16, .f32⟩
  | .local _ .vmem, ⟨5, _⟩ => ⟨S400x10000, .f32⟩
  | .local _ .vmem, ⟨6, _⟩ => ⟨S400x10000, .f32⟩
  | .local _ .vmem, ⟨7, _⟩ => ⟨S400x16, .f32⟩
  | .local _ .vmem, ⟨8, _⟩ => ⟨S400x16, .f32⟩
  | .local _ .vmem, ⟨9, _⟩ => ⟨S10000x32, .f32⟩
  | .local _ .vmem, ⟨10, _⟩ => ⟨S10000x16, .f32⟩
  | .local _ .vmem, ⟨11, _⟩ => ⟨S400x10000, .f32⟩
  | .local _ .vmem, ⟨12, _⟩ => ⟨S400x10000, .f32⟩
  | .local _ .vmem, ⟨13, _⟩ => ⟨S400x16, .f32⟩
  | .local _ .vmem, ⟨14, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S32x128_S128x32_1_0 : S32x128.Transposes [1, 0] S128x32
  transposes_S16x32_S32x16_1_0 : S16x32.Transposes [1, 0] S32x16
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S10000x16.size a
  hwx1_0 : ∀ i : grid1.Coords, EltTy.bits .f32 = 32 ∨ (Rect.block (s := S10000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x16.size a ≤ S10000x16.size a
  hwx1_2 : ∀ i : grid1.Coords, EltTy.bits .f32 = 32 ∨ (Rect.block (s := S10000x16) S400x16.size (cc1_transform_2 i) (hinb1_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v4) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v4) S10000x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S400x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S32x128 : Shape := ⟨2, ![32, 128]⟩
abbrev S32 : Shape := ⟨1, ![32]⟩
abbrev S16x32 : Shape := ⟨2, ![16, 32]⟩
abbrev S16 : Shape := ⟨1, ![16]⟩
abbrev S_ : Shape := ⟨0, ![]⟩
abbrev S128x32 : Shape := ⟨2, ![128, 32]⟩
abbrev S10000x32 : Shape := ⟨2, ![10000, 32]⟩
abbrev S1x32 : Shape := ⟨2, ![1, 32]⟩
abbrev S32x16 : Shape := ⟨2, ![32, 16]⟩
abbrev S10000x16 : Shape := ⟨2, ![10000, 16]⟩
abbrev S1x16 : Shape := ⟨2, ![1, 16]⟩

abbrev nBuf : Space → Nat
  | .hbm => 78
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32, .f32⟩
  | .hbm, ⟨4, _⟩ => ⟨S16x32, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S10000x128, .i1⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .i1⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .i1⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S128x32, .f32⟩
  | .hbm, ⟨26, _⟩ => ⟨S10000x32, .f32⟩
  | .hbm, ⟨27, _⟩ => ⟨S1x32, .f32⟩
  | .hbm, ⟨28, _⟩ => ⟨S10000x32, .f32⟩
  | .hbm, ⟨29, _⟩ => ⟨S10000x32, .f32⟩
  | .hbm, ⟨30, _⟩ => ⟨S10000x32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S10000x32, .i1⟩
  | .hbm, ⟨35, _⟩ => ⟨S_, .f32⟩
  | .hbm, ⟨36, _⟩ => ⟨S10000x32, .f32⟩
  | .hbm, ⟨37, _⟩ => ⟨S10000x32, .f32⟩
  | .hbm, ⟨38, _⟩ => ⟨S_, .f32⟩
  | .hbm, ⟨39, _⟩ => ⟨S10000x32, .f32⟩
  | .hbm, ⟨40, _⟩ => ⟨S10000x32, .i1⟩
  | .hbm, ⟨41, _⟩ => ⟨S_, .f32⟩
  | .hbm, ⟨42, _⟩ => ⟨S10000x32, .f32⟩
  | .hbm, ⟨43, _⟩ => ⟨S10000x32, .f32⟩
  | .hbm, ⟨44, _⟩ => ⟨S_, .f32⟩
  | .hbm, ⟨45, _⟩ => ⟨S10000x32, .f32⟩
  | .hbm, ⟨46, _⟩ => ⟨S10000x32, .i1⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S_, .f32⟩
  | .hbm, ⟨51, _⟩ => ⟨S10000x32, .f32⟩
  | .hbm, ⟨52, _⟩ => ⟨S10000x32, .f32⟩
  | .hbm, ⟨53, _⟩ => ⟨S32x16, .f32⟩
  | .hbm, ⟨54, _⟩ => ⟨S10000x16, .f32⟩
  | .hbm, ⟨55, _⟩ => ⟨S1x16, .f32⟩
  | .hbm, ⟨56, _⟩ => ⟨S10000x16, .f32⟩
  | .hbm, ⟨57, _⟩ => ⟨S10000x16, .f32⟩
  | .hbm, ⟨58, _⟩ => ⟨S10000x16, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S10000x16, .i1⟩
  | .hbm, ⟨63, _⟩ => ⟨S_, .f32⟩
  | .hbm, ⟨64, _⟩ => ⟨S10000x16, .f32⟩
  | .hbm, ⟨65, _⟩ => ⟨S10000x16, .f32⟩
  | .hbm, ⟨66, _⟩ => ⟨S_, .f32⟩
  | .hbm, ⟨67, _⟩ => ⟨S10000x16, .f32⟩
  | .hbm, ⟨68, _⟩ => ⟨S10000x16, .i1⟩
  | .hbm, ⟨69, _⟩ => ⟨S_, .f32⟩
  | .hbm, ⟨70, _⟩ => ⟨S10000x16, .f32⟩
  | .hbm, ⟨71, _⟩ => ⟨S10000x16, .f32⟩
  | .hbm, ⟨72, _⟩ => ⟨S_, .f32⟩
  | .hbm, ⟨73, _⟩ => ⟨S10000x16, .f32⟩
  | .hbm, ⟨74, _⟩ => ⟨S10000x16, .i1⟩
  | .hbm, ⟨75, _⟩ => ⟨S_, .f32⟩
  | .hbm, ⟨76, _⟩ => ⟨S10000x16, .f32⟩
  | .hbm, ⟨77, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_call0_call0_v0 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_call1_v0 : Ref sig .tc := ⟨.hbm, 17, rfl⟩
abbrev main_call0_v6 : Ref sig .tc := ⟨.hbm, 18, rfl⟩
abbrev main_call0_cst_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_call2_v0 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_2 : Ref sig .tc := ⟨.hbm, 31, rfl⟩
abbrev main_cst_3 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_call1_call0_v0 : Ref sig .tc := ⟨.hbm, 36, rfl⟩
abbrev main_call1_v2 : Ref sig .tc := ⟨.hbm, 37, rfl⟩
abbrev main_call1_cst : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_call1_v0 : Ref sig .tc := ⟨.hbm, 42, rfl⟩
abbrev main_call1_v6 : Ref sig .tc := ⟨.hbm, 43, rfl⟩
abbrev main_call1_cst_0 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_call2_v0 : Ref sig .tc := ⟨.hbm, 48, rfl⟩
abbrev main_v7 : Ref sig .tc := ⟨.hbm, 49, rfl⟩
abbrev main_call2_cst : Ref sig .tc := ⟨.hbm, 50, rfl⟩
abbrev main_call2_v0 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst_5 : Ref sig .tc := ⟨.hbm, 59, rfl⟩
abbrev main_cst_6 : Ref sig .tc := ⟨.hbm, 60, rfl⟩
abbrev main_cst_7 : Ref sig .tc := ⟨.hbm, 61, rfl⟩
abbrev main_call3_v0 : Ref sig .tc := ⟨.hbm, 62, rfl⟩
abbrev main_call3_v1 : Ref sig .tc := ⟨.hbm, 63, rfl⟩
abbrev main_call3_call0_v0 : Ref sig .tc := ⟨.hbm, 64, rfl⟩
abbrev main_call3_v2 : Ref sig .tc := ⟨.hbm, 65, rfl⟩
abbrev main_call3_cst : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_call1_v0 : Ref sig .tc := ⟨.hbm, 70, rfl⟩
abbrev main_call3_v6 : Ref sig .tc := ⟨.hbm, 71, rfl⟩
abbrev main_call3_cst_0 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_call2_v0 : Ref sig .tc := ⟨.hbm, 76, rfl⟩
abbrev main_v15 : Ref sig .tc := ⟨.hbm, 77, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  transposes_S32x128_S128x32_1_0 : S32x128.Transposes [1, 0] S128x32
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  transposes_S16x32_S32x16_1_0 : S16x32.Transposes [1, 0] S32x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.Region0.lean ====
/-
  Region 0 (the first layer's kernel) at the contents `V` the region finds in the TensorCore's buffers.
  The grid has 25 points, one per block of 400 rows of the adjacency. At the first point the body computes the
  feature matrix  n2n(x) · W1ᵀ + b1  from the three resident blocks and keeps it in its scratch buffer; at every point
  it multiplies the point's 400 adjacency rows with the scratch, cleans and rectifies, applies the second dense layer
  and stores the 400 × 16 result block. So the scratch holds the same feature matrix from the first point on, and the
  output block at point `t` is a function of the adjacency block at `t` and of that matrix.
-/
import proofs.«164597_g45457933861167_cont_8to1c4_294_3_alg».proof.Proof.Gen.Kernel.Launch
import proofs.«164597_g45457933861167_cont_8to1c4_294_3_alg».proof.Proof.Gen.Kernel.Skeleton
import proofs.«164597_g45457933861167_cont_8to1c4_294_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t₀ : Fin cfg0.N := ⟨0, by decide⟩

/-- What the scratch holds from the first point on: the feature matrix of the three resident blocks. -/
def scr0 (c : Dev nD) : Vec F S10000x32 .f32 :=
  k0_pay1 (iblk0 V c 0 t₀) (iblk0 V c 1 t₀) (iblk0 V c 2 t₀)

/-- What the body leaves in the output window's buffer at point `t`. -/
def out0_6 (c : Dev nD) (t : Fin cfg0.N) : Vec F S400x16 .f32 :=
  k0_pay2 (iblk0 V c 5 t) (scr0 V c) (iblk0 V c 3 t) (iblk0 V c 4 t)

/-! ## What an input window's staging buffer holds -/

/-- An input window's current staging buffer holds the window's block at every point, whether the pipeline fetched
    it there or not (an unfetched window's block index has not moved), for any proof data whose array is the entry
    contents and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Whole-buffer loads and stores -/

private theorem zeros2 : (![0, 0] : Fin 2 → ℕ) = fun _ => 0 := by
  funext a; fin_cases a <;> rfl

/-- A load through the whole-shape rectangle at zero offsets reads the buffer's contents. -/
private theorem readAt_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-shape rectangle at zero offsets, read back, is its payload: the rectangle holds
    every index, so the one piece covers the buffer. -/
private theorem read_writes_unit_zero {sig' : RefSig} {κ : Kind} {sp : Space} {S : Shape} {e : EltTy} {Val : EltTy → Type}
    [∀ e, Nonempty (Val e)] (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-! ## The body's conditional -/

/-- The condition of the body's conditional (the feature matrix is computed where it holds), from the grid
    coordinates: the skeleton's scalar chain substituted. -/
abbrev cond0 (i : grid0.Coords) : Prop :=
  (Scalar.cmpi .ne (Scalar.extui (Scalar.cmpi .eq (BitVec.ofNat 32 (i 0).val) 0#32)) 0#32) = 1#1

/-- It holds at the first point only: decided over the grid's 25 points. -/
theorem hcond0 : ∀ t : Fin cfg0.N, cond0 (grid0.coords t) ↔ t.val = 0 :=
  (by decide +kernel : ∀ t : Fin grid0.N, cond0 (grid0.coords t) ↔ t.val = 0)

/-! ## The body's two triples -/

set_option maxHeartbeats 1000000 in
/-- Where the condition holds: from the three resident blocks `x0 x1 x2`, the second layer's operands `x3 x4`, the
    adjacency rows `x5`, and the output buffer and the scratch at anything, the body leaves the scratch at the feature
    matrix of `x0 x1 x2` and the output buffer at the layer's result computed FROM THAT MATRIX: the load of the scratch
    after the store reads the stored payload. Each buffer is stored whole by one store, so what it reads back is that
    store's payload. -/
theorem sound_kernel0_first (c : Dev nD) (E : Set ℕ) (i : grid0.Coords)
    (arg1 : Memref sig .tc .vmem S10000x128 .f32) (harg1 : arg1.IsWhole) (arg2 : Memref sig .tc .vmem S128x32 .f32) (harg2 : arg2.IsWhole)
    (arg3 : Memref sig .tc .vmem S1x32 .f32) (harg3 : arg3.IsWhole) (arg4 : Memref sig .tc .vmem S32x16 .f32) (harg4 : arg4.IsWhole)
    (arg5 : Memref sig .tc .vmem S1x16 .f32) (harg5 : arg5.IsWhole) (arg6 : Memref sig .tc .vmem S400x10000 .f32) (harg6 : arg6.IsWhole)
    (arg7 : Memref sig .tc .vmem S400x16 .f32) (harg7 : arg7.IsWhole) (arg8 : Memref sig .tc .vmem S10000x32 .f32) (harg8 : arg8.IsWhole)
    (hc : cond0 i)
    (x0 : Vec F S10000x128 .f32) (x1 : Vec F S128x32 .f32) (x2 : Vec F S1x32 .f32) (x3 : Vec F S32x16 .f32) (x4 : Vec F S1x16 .f32)
    (x5 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay2 x5 (k0_pay1 x0 x1 x2) x3 x4)
            ∗ owns (c : Thread nD τ) arg8 fullShare (k0_pay1 x0 x1 x2)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold sound_kernel0_first.sl.v4 sound_kernel0_first.sl.H8_1
    rw [read_writes_unit_zero (S := S400x16) _ _ zeros2, View.readCov_unit_zero (S := S10000x32) _ zeros2,
      readAt_unit_zero (S := S400x10000) _ _ zeros2, readAt_unit_zero (S := S32x16) _ _ zeros2,
      readAt_unit_zero (S := S1x16) _ _ zeros2, readAt_unit_zero (S := S10000x128) _ _ zeros2,
      readAt_unit_zero (S := S128x32) _ _ zeros2, readAt_unit_zero (S := S1x32) _ _ zeros2]
  iexists _; isplitr
  swap; · iexact H8
  ipureintro
  unfold sound_kernel0_first.sl.H8_1
  rw [read_writes_unit_zero (S := S10000x32) _ _ zeros2, readAt_unit_zero (S := S10000x128) _ _ zeros2,
    readAt_unit_zero (S := S128x32) _ _ zeros2, readAt_unit_zero (S := S1x32) _ _ zeros2]

set_option maxHeartbeats 1000000 in
/-- Where the condition fails the body touches neither the resident blocks nor the scratch's contents: from the second
    layer's operands `x3 x4`, the adjacency rows `x5`, the scratch at `s` and the output buffer at anything, it leaves
    the output buffer at the layer's result computed from `s`, everything else as it was. -/
theorem sound_kernel0_later (c : Dev nD) (E : Set ℕ) (i : grid0.Coords)
    (arg1 : Memref sig .tc .vmem S10000x128 .f32) (harg1 : arg1.IsWhole) (arg2 : Memref sig .tc .vmem S128x32 .f32) (harg2 : arg2.IsWhole)
    (arg3 : Memref sig .tc .vmem S1x32 .f32) (harg3 : arg3.IsWhole) (arg4 : Memref sig .tc .vmem S32x16 .f32) (harg4 : arg4.IsWhole)
    (arg5 : Memref sig .tc .vmem S1x16 .f32) (harg5 : arg5.IsWhole) (arg6 : Memref sig .tc .vmem S400x10000 .f32) (harg6 : arg6.IsWhole)
    (arg7 : Memref sig .tc .vmem S400x16 .f32) (harg7 : arg7.IsWhole) (arg8 : Memref sig .tc .vmem S10000x32 .f32) (harg8 : arg8.IsWhole)
    (hc : ¬cond0 i)
    (x3 : Vec F S32x16 .f32) (x4 : Vec F S1x16 .f32) (x5 : Vec F S400x10000 .f32) (s : Vec F S10000x32 .f32) (K : PUnit → sProp 𝕄) :
    iprop(owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s
        ∗ (iprop(owns (c : Thread nD τ) arg4 fullShare x3 ∗ owns (c : Thread nD τ) arg5 fullShare x4 ∗ owns (c : Thread nD τ) arg6 fullShare x5
            ∗ owns (c : Thread nD τ) arg7 fullShare (k0_pay2 x5 s x3 x4)
            ∗ owns (c : Thread nD τ) arg8 fullShare s) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f4, %hf4, H4⟩, ⟨%f5, %hf5, H5⟩, ⟨%f6, %hf6, H6⟩, ⟨%d7, %f7, -, H7⟩, ⟨%f8, %hf8, H8⟩, Hk⟩
  subst hf4 hf5 hf6 hf8
  sl_exec (disch := first | exact hc)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_unit_zero (S := S400x16) _ _ zeros2,
      readAt_unit_zero (S := S400x10000) _ _ zeros2, readAt_unit_zero (S := S10000x32) _ _ zeros2,
      readAt_unit_zero (S := S32x16) _ _ zeros2, readAt_unit_zero (S := S1x16) _ _ zeros2]
  iexists f8; isplitr; · ipureintro; rfl
  iexact H8

/-! ## The region invariant -/

/-- The scratch operand as a memref. -/
abbrev scM0 : Memref sig .tc .vmem S10000x32 .f32 := Memref.whole cc0_scratch0

/-- The scoped buffers outside this pipeline other than the scratch (the second kernel's staging buffers), each at anything. -/
def restB (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Before the first point every scoped buffer outside the pipeline is at anything; from then on the scratch holds the
    feature matrix, the other such buffers are at anything, and the generator register is at some state. -/
def PhiS (c : Dev nD) : ℕ → sProp 𝕄
  | 0 => Pipeline.ΦA spec0 c
  | _ + 1 => iprop(owns (c : Thread nD τ) scM0 fullShare (scr0 V c) ∗ restB (F := F) c ∗ (∃ r, prngReg c r))

/-! ## The proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 V c t := by dsimp only [dat0]

/-! ## The invariant, point by point -/

theorem PhiS_zero (c : Dev nD) : PhiS V c 0 = Pipeline.ΦA spec0 c := rfl

theorem PhiS_succ (c : Dev nD) (n : ℕ) :
    PhiS V c (n + 1) = iprop(owns (c : Thread nD τ) scM0 fullShare (scr0 V c) ∗ restB (F := F) c ∗ (∃ r, prngReg c r)) := rfl

/-- Before a point that is not the first the scratch holds the feature matrix. -/
theorem PhiS_pos (c : Dev nD) (n : ℕ) (hn : n ≠ 0) :
    PhiS V c n = iprop(owns (c : Thread nD τ) scM0 fullShare (scr0 V c) ∗ restB (F := F) c ∗ (∃ r, prngReg c r)) := by
  cases n with
  | zero => exact absurd rfl hn
  | succ n => rfl

/-- The invariant at a point's start, restated at the point's position. -/
theorem Phi0_castSucc (c : Dev nD) (t : Fin cfg0.N) : (dat0 V c).Φ t.castSucc = PhiS V c t.val := by
  dsimp only [dat0]; simp only [Fin.coe_castSucc]

/-- and at its end. -/
theorem Phi0_succ (c : Dev nD) (t : Fin cfg0.N) :
    (dat0 V c).Φ t.succ = iprop(owns (c : Thread nD τ) scM0 fullShare (scr0 V c) ∗ restB (F := F) c ∗ (∃ r, prngReg c r)) := by
  dsimp only [dat0]; simp only [Fin.val_succ]; exact PhiS_succ V c t.val

/-- The launch's invariant with the scratch operand as a memref owned at some contents, the other scoped buffers
    outside the pipeline beside it. -/
theorem PhiA0_eq (c : Dev nD) :
    (Pipeline.ΦA spec0 c : sProp 𝕄)
      = iprop(((∃ d, owns (c : Thread nD τ) scM0 fullShare d) ∗ restB (F := F) c) ∗ (∃ r, prngReg c r)) := by
  unfold Pipeline.ΦA restB; rw [scopedRest0_eq]; simp only [scM0, owns_whole]; try rfl

/-! ## What the body finds in the input windows' buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point. The input windows' buffers hold their blocks. At the first point the invariant hands the
    body the scratch at anything and the condition holds: the body stores the feature matrix of the resident blocks at
    that point, which are the blocks at the first point, so the invariant takes the scratch back at the named matrix.
    At a later point the condition fails, the invariant hands the scratch at the named matrix and takes it back
    unchanged. Either way the output buffer is left at the second layer's result computed from the named matrix. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    Phi0_succ, Phi0_castSucc, after0_0, after0_1, after0_2, after0_3, after0_4, after0_5, after0_6]
  by_cases hz : t.val = 0
  · obtain rfl : t = t₀ := Fin.ext hz
    rw [show PhiS V c (t₀ : Fin cfg0.N).val = Pipeline.ΦA spec0 c from rfl, PhiA0_eq]
    unfold out0_6 scr0
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t₀) _ _ _ _ _ _ _ _ _ _ _ _ _ _ _ _ ((hcond0 t₀).mpr rfl)
      (iblk0 V c 0 t₀) (iblk0 V c 1 t₀) (iblk0 V c 2 t₀) (iblk0 V c 3 t₀) (iblk0 V c 4 t₀) (iblk0 V c 5 t₀) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    iintro ⟨H0, H1, H2, H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    unfold out0_6
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ (grid0.coords t) _ _ _ _ _ _ _ _ _ _ _ _ _ _ _ _ (fun h => hz ((hcond0 t).mp h))
      (iblk0 V c 3 t) (iblk0 V c 4 t) (iblk0 V c 5 t) (scr0 V c) _)
    isplitl [H3]; · iexact H3
    isplitl [H4]; · iexact H4
    isplitl [H5]; · iexact H5
    isplitl [H6]; · iexists _; iexact H6
    isplitl [HS]; · iexact HS
    iintro ⟨H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : (Pipeline.ΦA spec0 c : sProp 𝕄) ⊢ (dat0 V c).Φ 0 := by
  rw [show (dat0 V c).Φ 0 = PhiS V c 0 from rfl, PhiS_zero]

/-- After the last point the invariant gives the launch's back: the scratch's named contents are forgotten. -/
theorem Phi0_out (c : Dev nD) : (dat0 V c).Φ (Fin.last cfg0.N) ⊢ (Pipeline.ΦA spec0 c : sProp 𝕄) := by
  rw [show (dat0 V c).Φ (Fin.last cfg0.N) = PhiS V c (Fin.last cfg0.N).val from rfl,
    PhiS_pos V c _ (by rw [Fin.val_last]; have : cfg0.N = 25 := N_0; omega), PhiA0_eq]
  iintro ⟨HS, HR, Hg⟩
  isplitl [HS HR]
  · isplitl [HS]; · iexists _; iexact HS
    iexact HR
  iexact Hg

end Cert.Kernel.Hand

end
-- ==== Proof.K.Region1.lean ====
/-
  Region 1 (the second layer's kernel) at the contents `V` the region finds in the TensorCore's buffers.
  At each of the 25 points the body multiplies the point's 400 adjacency rows with the resident 10000 × 16 matrix and
  stores the cleaned product: the output block at point `t` is a function of the adjacency block at `t` and of that
  matrix. Nothing is kept between points.
-/
import proofs.«164597_g45457933861167_cont_8to1c4_294_3_alg».proof.Proof.Gen.Kernel.Launch
import proofs.«164597_g45457933861167_cont_8to1c4_294_3_alg».proof.Proof.Gen.Kernel.Skeleton
import proofs.«164597_g45457933861167_cont_8to1c4_294_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer at point `t`. -/
def out1_2 (c : Dev nD) (t : Fin cfg1.N) : Vec F S400x16 .f32 :=
  k1_pay1 (iblk1 V c 1 t) (iblk1 V c 0 t)

/-! ## The input windows' buffers -/

/-- The resident matrix's buffer holds its block at every point, fetched there or not: unfetched, the block index
    has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The adjacency rows' buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

/-- The offsets of a whole-buffer access are all zero. -/
private theorem off0 : (![0, 0] : Fin 2 → ℕ) = fun _ => 0 := funext fun a => by fin_cases a <;> rfl

set_option maxHeartbeats 1000000 in
/-- The body on whole buffers, the two inputs' at contents `x0` (the matrix) and `x1` (the rows) and the output's at
    anything, runs to the continuation holding the inputs' as they were and the output's at the payload of the two:
    it loads the three buffers whole and stores the payload over the whole output buffer, so what the buffer then
    reads is the one stored piece. -/
theorem sound_kernel1 (c : Dev nD) (E : Set ℕ) (i : grid1.Coords)
    (arg1 : Memref sig .tc .vmem S10000x16 .f32) (harg1 : arg1.IsWhole)
    (arg2 : Memref sig .tc .vmem S400x10000 .f32) (harg2 : arg2.IsWhole)
    (arg3 : Memref sig .tc .vmem S400x16 .f32) (harg3 : arg3.IsWhole)
    (x0 : Vec F S10000x16 .f32) (x1 : Vec F S400x10000 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 x0)) -∗ K ⟨⟩))
      ⊢ wp frame (wpE (defs₀ (F := F)) Variants.none c none) E (cc1__layer2_body i arg1 harg1 arg2 harg2 arg3 harg3) K := by
  simp only [cc1__layer2_body_eq_skeleton]; unfold cc1__layer2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero off0 inb_S400x16_S400x16_0_0 y⟩),
    View.canon_unit_zero off0, View.readAt_eq_ld, View.readAt_eq_ld, View.ld_unit_zero off0, View.ld_unit_zero off0]

/-! ## The proof data -/

/-- The proof data of pipeline 1 on core `c`: the invariant is the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Vals.lean ====
/-
  The TensorCore's buffer contents at each boundary of @main, from the launch memory `m`: after the four host
  operations (two transposes, two reshapes), after the first kernel region (its output array at what its write-backs
  leave), after the second. No item writes an argument array, so each argument ends as launched; the result array ends
  at what the second region's write-backs leave.
-/
import proofs.«164597_g45457933861167_cont_8to1c4_294_3_alg».proof.Proof.K.Region0
import proofs.«164597_g45457933861167_cont_8to1c4_294_3_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## What the regions find: the arguments as launched -/

/-- The four host operations write only their own results: a reference that is none of the four is, after them,
    as launched. -/
private theorem W1_keep (c : Dev nD) (r : Ref sig .tc)
    (h0 : r ≠ main_call0_v0) (h1 : r ≠ main_call0_v1) (h2 : r ≠ main_call0_v2) (h3 : r ≠ main_call0_v3) :
    W1 m c (Proc.devRef .tc r) = m ((c : Thread nD τ).loc r) :=
  calc W1 m c (Proc.devRef .tc r)
    _ = W0 m c (Proc.devRef .tc r) := StableHlo.after_of_forall_not_mem (b := Proc.devRef .tc r) _ _
          (List.forall_iff_forall_mem.mp (by
            simp only [hostOps0, List.Forall, StableHlo.unary_writes, StableHlo.reshape_writes, Finset.mem_singleton]
            exact ⟨StableHlo.devRef_ne_of_ne h0, StableHlo.devRef_ne_of_ne h1, StableHlo.devRef_ne_of_ne h2,
              StableHlo.devRef_ne_of_ne h3⟩))
    _ = m ((c : Thread nD τ).loc r) := rfl

/-- No host operation writes an argument: the first region finds the features and the adjacency as launched. -/
theorem V1_main_arg0 (c : Dev nD) : V1 m c main_arg0 = m ((c : Thread nD τ).loc main_arg0) :=
  W1_keep m c main_arg0 (by decide) (by decide) (by decide) (by decide)
theorem V1_main_arg1 (c : Dev nD) : V1 m c main_arg1 = m ((c : Thread nD τ).loc main_arg1) :=
  W1_keep m c main_arg1 (by decide) (by decide) (by decide) (by decide)

/-- The second region finds the adjacency as launched. -/
theorem V2_main_arg1 (c : Dev nD) : V2 m c main_arg1 = m ((c : Thread nD τ).loc main_arg1) :=
  calc V2 m c main_arg1
    _ = V1 m c main_arg1 := (W2_arr m c 5).trans (((dat0 (V1 m) c).arrAt_in 5 rfl _).trans (A_eq0 (V1 m) c 5))
    _ = m ((c : Thread nD τ).loc main_arg1) := V1_main_arg1 m c
/-- The second region finds, in its resident operand, what the first region's write-backs left. -/
theorem V2_main_call0_v4 (c : Dev nD) : V2 m c main_call0_v4 = (dat0 (V1 m) c).arrAt 6 cfg0.N :=
  W2_arr m c 6

/-! ## The arguments end as launched, the result at what the second region leaves -/

/-- The features: no array of the second region, an input array of the first, no host operation's result. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = V1 m c main_arg0 := (W2_arr m c 0).trans (((dat0 (V1 m) c).arrAt_in 0 rfl _).trans (A_eq0 (V1 m) c 0))
    _ = m ((c : Thread nD τ).loc main_arg0) := V1_main_arg0 m c
/-- The adjacency: an input array of the second region, which found it as launched. -/
theorem W3_main_arg1 (c : Dev nD) : W3 m c (Proc.devRef .tc main_arg1) = m ((c : Thread nD τ).loc main_arg1) :=
  calc W3 m c (Proc.devRef .tc main_arg1)
    _ = V2 m c main_arg1 := (W3_arr m c 1).trans (((dat1 (V2 m) c).arrAt_in 1 rfl _).trans (A_eq1 (V2 m) c 1))
    _ = m ((c : Thread nD τ).loc main_arg1) := V2_main_arg1 m c
/-- The weights and biases: an array of neither region, and no host operation's result. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_keep m c main_arg2 (by decide) (by decide) (by decide) (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_keep m c main_arg3 (by decide) (by decide) (by decide) (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_keep m c main_arg4 (by decide) (by decide) (by decide) (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_keep m c main_arg5 (by decide) (by decide) (by decide) (by decide)
theorem W3_main_v0 (c : Dev nD) : W3 m c (Proc.devRef .tc main_v0) = (dat1 (V2 m) c).arrAt 2 cfg1.N :=
  W3_arr m c 2

end Cert.Kernel.Hand

end
-- ==== Proof.K.Run.lean ====
/-
  The run of @main: four host operations, the first kernel region, the second. Every weakly fair execution from a
  memory `m` with zero counters terminates without a fault, and every unscoped buffer of each core ends at the
  contents the boundaries' fold gives (`W3`): the arguments as launched, the result at what the second region's
  write-backs leave.
-/
import proofs.«164597_g45457933861167_cont_8to1c4_294_3_alg».proof.Proof.K.Vals

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: the first region's at what the host operations
    leave (`V1`), the second's at what the first region leaves (`V2`). -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A line of host operations as a segment over the unscoped references from the contents `W`, `R` riding along: it
    leaves those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor

/-- The last thread state without the `owes`: every unscoped buffer at the last boundary's contents `W3`, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- THE FIRST REGION over the thread state: entered from every unscoped buffer at `W1` (what the host operations
    leave), left at `W2` (its output array at what its write-backs leave, every other buffer as entered). Its arrays
    are split out of the unscoped buffers and put back at the exit contents; the generator register and the scoped
    buffers outside the pipeline enter the invariant before the first point and come back after the last, the scratch
    buffer's named contents forgotten; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in (V1 m) c)
    unfold Pipeline.ΦA
    iintro ⟨Hp, -, Hr⟩
    isplitl [Hr]; · iexact Hr
    iexact Hp
  hout c := by
    rw [Pipeline.ownSems0_none]
    refine BIBase.Entails.trans (Phi0_out (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2` (what the first region leaves),
    left at `W3` (the result array at what its write-backs leave, every other buffer as entered), which the run reads
    at the end. The invariant is the scoped buffers outside the pipeline and the generator register at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments: the chain of its items, then the segments' run against that chain. -/
theorem main_run (c : Dev nD) : main (F := F) c = Pipeline.Seg.run (segs m) := (main_chain c).trans (by chain_rfl)

set_option backward.isDefEq.respectTransparency.types false in
/-- THE RUN: every unscoped buffer ends at `W3`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run with the result array named and the arguments unchanged. -/
theorem run_value : θ_run defs (onTc (τ := τ) (main (F := F))) ⟨m, fun _ => 0, ρ⟩ (fun r => ∀ c : Dev nD,
      r.2.mem ((c.tc : Thread nD τ).loc main_v0) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0 (by decide))).trans (W3_main_v0 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.Kernel.Hand

end
-- ==== Proof.KI.Region0.lean ====
/-
  Region 0 (the first layer's kernel) at the contents `V` the region finds in the TensorCore's buffers.
  The grid has 25 points, one per block of 400 rows of the adjacency. At the first point the body computes the
  feature matrix  n2n(x) · W1ᵀ + b1  from the three resident blocks and keeps it in its scratch buffer; at every point
  it multiplies the point's 400 adjacency rows with the scratch, cleans and rectifies, applies the second dense layer
  and stores the 400 × 16 result block. So the scratch holds the same feature matrix from the first point on, and the
  output block at point `t` is a function of the adjacency block at `t` and of that matrix.
-/
import proofs.«164597_g45457933861167_cont_8to1c4_294_3_alg».proof.Proof.Gen.KernelIdeal.Launch
import proofs.«164597_g45457933861167_cont_8to1c4_294_3_alg».proof.Proof.Gen.KernelIdeal.Skeleton
import proofs.«164597_g45457933861167_cont_8to1c4_294_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t₀ : Fin cfg0.N := ⟨0, by decide⟩

/-- What the scratch holds from the first point on: the feature matrix of the three resident blocks. -/
def scr0 (c : Dev nD) : Vec F S10000x32 .f32 :=
  k0_pay1 (iblk0 V c 0 t₀) (iblk0 V c 1 t₀) (iblk0 V c 2 t₀)

/-- What the body leaves in the output window's buffer at point `t`. -/
def out0_6 (c : Dev nD) (t : Fin cfg0.N) : Vec F S400x16 .f32 :=
  k0_pay2 (iblk0 V c 5 t) (scr0 V c) (iblk0 V c 3 t) (iblk0 V c 4 t)

/-! ## What an input window's staging buffer holds -/

/-- An input window's current staging buffer holds the window's block at every point, whether the pipeline fetched
    it there or not (an unfetched window's block index has not moved), for any proof data whose array is the entry
    contents and whose body leaves the block in place. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## Whole-buffer loads and stores -/

private theorem zeros2 : (![0, 0] : Fin 2 → ℕ) = fun _ => 0 := by
  funext a; fin_cases a <;> rfl

/-- A load through the whole-shape rectangle at zero offsets reads the buffer's contents. -/
private theorem readAt_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-shape rectangle at zero offsets, read back, is its payload: the rectangle holds
    every index, so the one piece covers the buffer. -/
private theorem read_writes_unit_zero {sig' : RefSig} {κ : Kind} {sp : Space} {S : Shape} {e : EltTy} {Val : EltTy → Type}
    [∀ e, Nonempty (Val e)] (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

/-! ## The body's conditional -/

/-- The condition of the body's conditional (the feature matrix is computed where it holds), from the grid
    coordinates: the skeleton's scalar chain substituted. -/
abbrev cond0 (i : grid0.Coords) : Prop :=
  (Scalar.cmpi .ne (Scalar.extui (Scalar.cmpi .eq (BitVec.ofNat 32 (i 0).val) 0#32)) 0#32) = 1#1

/-- It holds at the first point only: decided over the grid's 25 points. -/
theorem hcond0 : ∀ t : Fin cfg0.N, cond0 (grid0.coords t) ↔ t.val = 0 :=
  (by decide +kernel : ∀ t : Fin grid0.N, cond0 (grid0.coords t) ↔ t.val = 0)

/-! ## The body's two triples -/

set_option maxHeartbeats 1000000 in
/-- Where the condition holds: from the three resident blocks `x0 x1 x2`, the second layer's operands `x3 x4`, the
    adjacency rows `x5`, and the output buffer and the scratch at anything, the body leaves the scratch at the feature
    matrix of `x0 x1 x2` and the output buffer at the layer's result computed FROM THAT MATRIX: the load of the scratch
    after the store reads the stored payload. Each buffer is stored whole by one store, so what it reads back is that
    store's payload. -/
theorem sound_kernel0_first (c : Dev nD) (E : Set ℕ) (i : grid0.Coords)
    (arg1 : Memref sig .tc .vmem S10000x128 .f32) (harg1 : arg1.IsWhole) (arg2 : Memref sig .tc .vmem S128x32 .f32) (harg2 : arg2.IsWhole)
    (arg3 : Memref sig .tc .vmem S1x32 .f32) (harg3 : arg3.IsWhole) (arg4 : Memref sig .tc .vmem S32x16 .f32) (harg4 : arg4.IsWhole)
    (arg5 : Memref sig .tc .vmem S1x16 .f32) (harg5 : arg5.IsWhole) (arg6 : Memref sig .tc .vmem S400x10000 .f32) (harg6 : arg6.IsWhole)
    (arg7 : Memref sig .tc .vmem S400x16 .f32) (harg7 : arg7.IsWhole) (arg8 : Memref sig .tc .vmem S10000x32 .f32) (harg8 : arg8.IsWhole)
    (hc : cond0 i)
    (x0 : Vec F S10000x128 .f32) (x1 : Vec F S128x32 .f32) (x2 : Vec F S1x32 .f32) (x3 : Vec F S32x16 .f32) (x4 : Vec F S1x16 .f32)
    (x5 : Vec F S400x10000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay2 x5 (k0_pay1 x0 x1 x2) x3 x4)
            ∗ owns (c : Thread nD τ) arg8 fullShare (k0_pay1 x0 x1 x2)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec (disch := first | exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold sound_kernel0_first.sl.v4 sound_kernel0_first.sl.H8_1
    rw [read_writes_unit_zero (S := S400x16) _ _ zeros2, View.readCov_unit_zero (S := S10000x32) _ zeros2,
      readAt_unit_zero (S := S400x10000) _ _ zeros2, readAt_unit_zero (S := S32x16) _ _ zeros2,
      readAt_unit_zero (S := S1x16) _ _ zeros2, readAt_unit_zero (S := S10000x128) _ _ zeros2,
      readAt_unit_zero (S := S128x32) _ _ zeros2, readAt_unit_zero (S := S1x32) _ _ zeros2]
  iexists _; isplitr
  swap; · iexact H8
  ipureintro
  unfold sound_kernel0_first.sl.H8_1
  rw [read_writes_unit_zero (S := S10000x32) _ _ zeros2, readAt_unit_zero (S := S10000x128) _ _ zeros2,
    readAt_unit_zero (S := S128x32) _ _ zeros2, readAt_unit_zero (S := S1x32) _ _ zeros2]

set_option maxHeartbeats 1000000 in
/-- Where the condition fails the body touches neither the resident blocks nor the scratch's contents: from the second
    layer's operands `x3 x4`, the adjacency rows `x5`, the scratch at `s` and the output buffer at anything, it leaves
    the output buffer at the layer's result computed from `s`, everything else as it was. -/
theorem sound_kernel0_later (c : Dev nD) (E : Set ℕ) (i : grid0.Coords)
    (arg1 : Memref sig .tc .vmem S10000x128 .f32) (harg1 : arg1.IsWhole) (arg2 : Memref sig .tc .vmem S128x32 .f32) (harg2 : arg2.IsWhole)
    (arg3 : Memref sig .tc .vmem S1x32 .f32) (harg3 : arg3.IsWhole) (arg4 : Memref sig .tc .vmem S32x16 .f32) (harg4 : arg4.IsWhole)
    (arg5 : Memref sig .tc .vmem S1x16 .f32) (harg5 : arg5.IsWhole) (arg6 : Memref sig .tc .vmem S400x10000 .f32) (harg6 : arg6.IsWhole)
    (arg7 : Memref sig .tc .vmem S400x16 .f32) (harg7 : arg7.IsWhole) (arg8 : Memref sig .tc .vmem S10000x32 .f32) (harg8 : arg8.IsWhole)
    (hc : ¬cond0 i)
    (x3 : Vec F S32x16 .f32) (x4 : Vec F S1x16 .f32) (x5 : Vec F S400x10000 .f32) (s : Vec F S10000x32 .f32) (K : PUnit → sProp 𝕄) :
    iprop(owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare s
        ∗ (iprop(owns (c : Thread nD τ) arg4 fullShare x3 ∗ owns (c : Thread nD τ) arg5 fullShare x4 ∗ owns (c : Thread nD τ) arg6 fullShare x5
            ∗ owns (c : Thread nD τ) arg7 fullShare (k0_pay2 x5 s x3 x4)
            ∗ owns (c : Thread nD τ) arg8 fullShare s) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f4, %hf4, H4⟩, ⟨%f5, %hf5, H5⟩, ⟨%f6, %hf6, H6⟩, ⟨%d7, %f7, -, H7⟩, ⟨%f8, %hf8, H8⟩, Hk⟩
  subst hf4 hf5 hf6 hf8
  sl_exec (disch := first | exact hc)
  sl_step
  iapply Hk
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [read_writes_unit_zero (S := S400x16) _ _ zeros2,
      readAt_unit_zero (S := S400x10000) _ _ zeros2, readAt_unit_zero (S := S10000x32) _ _ zeros2,
      readAt_unit_zero (S := S32x16) _ _ zeros2, readAt_unit_zero (S := S1x16) _ _ zeros2]
  iexists f8; isplitr; · ipureintro; rfl
  iexact H8

/-! ## The region invariant -/

/-- The scratch operand as a memref. -/
abbrev scM0 : Memref sig .tc .vmem S10000x32 .f32 := Memref.whole cc0_scratch0

/-- The scoped buffers outside this pipeline other than the scratch (the second kernel's staging buffers), each at anything. -/
def restB (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- Before the first point every scoped buffer outside the pipeline is at anything; from then on the scratch holds the
    feature matrix, the other such buffers are at anything, and the generator register is at some state. -/
def PhiS (c : Dev nD) : ℕ → sProp 𝕄
  | 0 => Pipeline.ΦA spec0 c
  | _ + 1 => iprop(owns (c : Thread nD τ) scM0 fullShare (scr0 V c) ∗ restB (F := F) c ∗ (∃ r, prngReg c r))

/-! ## The proof data -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 V c t := by dsimp only [dat0]

/-! ## The invariant, point by point -/

theorem PhiS_zero (c : Dev nD) : PhiS V c 0 = Pipeline.ΦA spec0 c := rfl

theorem PhiS_succ (c : Dev nD) (n : ℕ) :
    PhiS V c (n + 1) = iprop(owns (c : Thread nD τ) scM0 fullShare (scr0 V c) ∗ restB (F := F) c ∗ (∃ r, prngReg c r)) := rfl

/-- Before a point that is not the first the scratch holds the feature matrix. -/
theorem PhiS_pos (c : Dev nD) (n : ℕ) (hn : n ≠ 0) :
    PhiS V c n = iprop(owns (c : Thread nD τ) scM0 fullShare (scr0 V c) ∗ restB (F := F) c ∗ (∃ r, prngReg c r)) := by
  cases n with
  | zero => exact absurd rfl hn
  | succ n => rfl

/-- The invariant at a point's start, restated at the point's position. -/
theorem Phi0_castSucc (c : Dev nD) (t : Fin cfg0.N) : (dat0 V c).Φ t.castSucc = PhiS V c t.val := by
  dsimp only [dat0]; simp only [Fin.coe_castSucc]

/-- and at its end. -/
theorem Phi0_succ (c : Dev nD) (t : Fin cfg0.N) :
    (dat0 V c).Φ t.succ = iprop(owns (c : Thread nD τ) scM0 fullShare (scr0 V c) ∗ restB (F := F) c ∗ (∃ r, prngReg c r)) := by
  dsimp only [dat0]; simp only [Fin.val_succ]; exact PhiS_succ V c t.val

/-- The launch's invariant with the scratch operand as a memref owned at some contents, the other scoped buffers
    outside the pipeline beside it. -/
theorem PhiA0_eq (c : Dev nD) :
    (Pipeline.ΦA spec0 c : sProp 𝕄)
      = iprop(((∃ d, owns (c : Thread nD τ) scM0 fullShare d) ∗ restB (F := F) c) ∗ (∃ r, prngReg c r)) := by
  unfold Pipeline.ΦA restB; rw [scopedRest0_eq]; simp only [scM0, owns_whole]; try rfl

/-! ## What the body finds in the input windows' buffers -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point. The input windows' buffers hold their blocks. At the first point the invariant hands the
    body the scratch at anything and the condition holds: the body stores the feature matrix of the resident blocks at
    that point, which are the blocks at the first point, so the invariant takes the scratch back at the named matrix.
    At a later point the condition fails, the invariant hands the scratch at the named matrix and takes it back
    unchanged. Either way the output buffer is left at the second layer's result computed from the named matrix. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    Phi0_succ, Phi0_castSucc, after0_0, after0_1, after0_2, after0_3, after0_4, after0_5, after0_6]
  by_cases hz : t.val = 0
  · obtain rfl : t = t₀ := Fin.ext hz
    rw [show PhiS V c (t₀ : Fin cfg0.N).val = Pipeline.ΦA spec0 c from rfl, PhiA0_eq]
    unfold out0_6 scr0
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t₀) _ _ _ _ _ _ _ _ _ _ _ _ _ _ _ _ ((hcond0 t₀).mpr rfl)
      (iblk0 V c 0 t₀) (iblk0 V c 1 t₀) (iblk0 V c 2 t₀) (iblk0 V c 3 t₀) (iblk0 V c 4 t₀) (iblk0 V c 5 t₀) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexists _; iexact HS
    iintro ⟨H0, H1, H2, H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    unfold out0_6
    iintro ⟨⟨HS, HR, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ (grid0.coords t) _ _ _ _ _ _ _ _ _ _ _ _ _ _ _ _ (fun h => hz ((hcond0 t).mp h))
      (iblk0 V c 3 t) (iblk0 V c 4 t) (iblk0 V c 5 t) (scr0 V c) _)
    isplitl [H3]; · iexact H3
    isplitl [H4]; · iexact H4
    isplitl [H5]; · iexact H5
    isplitl [H6]; · iexists _; iexact H6
    isplitl [HS]; · iexact HS
    iintro ⟨H3, H4, H5, H6, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_in (c : Dev nD) : (Pipeline.ΦA spec0 c : sProp 𝕄) ⊢ (dat0 V c).Φ 0 := by
  rw [show (dat0 V c).Φ 0 = PhiS V c 0 from rfl, PhiS_zero]

/-- After the last point the invariant gives the launch's back: the scratch's named contents are forgotten. -/
theorem Phi0_out (c : Dev nD) : (dat0 V c).Φ (Fin.last cfg0.N) ⊢ (Pipeline.ΦA spec0 c : sProp 𝕄) := by
  rw [show (dat0 V c).Φ (Fin.last cfg0.N) = PhiS V c (Fin.last cfg0.N).val from rfl,
    PhiS_pos V c _ (by rw [Fin.val_last]; have : cfg0.N = 25 := N_0; omega), PhiA0_eq]
  iintro ⟨HS, HR, Hg⟩
  isplitl [HS HR]
  · isplitl [HS]; · iexists _; iexact HS
    iexact HR
  iexact Hg

end Cert.KernelIdeal.Hand

end
-- ==== Proof.KI.Region1.lean ====
/-
  Region 1 (the second layer's kernel) at the contents `V` the region finds in the TensorCore's buffers.
  At each of the 25 points the body multiplies the point's 400 adjacency rows with the resident 10000 × 16 matrix and
  stores the cleaned product: the output block at point `t` is a function of the adjacency block at `t` and of that
  matrix. Nothing is kept between points.
-/
import proofs.«164597_g45457933861167_cont_8to1c4_294_3_alg».proof.Proof.Gen.KernelIdeal.Launch
import proofs.«164597_g45457933861167_cont_8to1c4_294_3_alg».proof.Proof.Gen.KernelIdeal.Skeleton
import proofs.«164597_g45457933861167_cont_8to1c4_294_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output window's buffer at point `t`. -/
def out1_2 (c : Dev nD) (t : Fin cfg1.N) : Vec F S400x16 .f32 :=
  k1_pay1 (iblk1 V c 1 t) (iblk1 V c 0 t)

/-! ## The input windows' buffers -/

/-- The resident matrix's buffer holds its block at every point, fetched there or not: unfetched, the block index
    has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The adjacency rows' buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

/-- The offsets of a whole-buffer access are all zero. -/
private theorem off0 : (![0, 0] : Fin 2 → ℕ) = fun _ => 0 := funext fun a => by fin_cases a <;> rfl

set_option maxHeartbeats 1000000 in
/-- The body on whole buffers, the two inputs' at contents `x0` (the matrix) and `x1` (the rows) and the output's at
    anything, runs to the continuation holding the inputs' as they were and the output's at the payload of the two:
    it loads the three buffers whole and stores the payload over the whole output buffer, so what the buffer then
    reads is the one stored piece. -/
theorem sound_kernel1 (c : Dev nD) (E : Set ℕ) (i : grid1.Coords)
    (arg1 : Memref sig .tc .vmem S10000x16 .f32) (harg1 : arg1.IsWhole)
    (arg2 : Memref sig .tc .vmem S400x10000 .f32) (harg2 : arg2.IsWhole)
    (arg3 : Memref sig .tc .vmem S400x16 .f32) (harg3 : arg3.IsWhole)
    (x0 : Vec F S10000x16 .f32) (x1 : Vec F S400x10000 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x1 x0)) -∗ K ⟨⟩))
      ⊢ wp frame (wpE (defs₀ (F := F)) Variants.none c none) E (cc1__layer2_body i arg1 harg1 arg2 harg2 arg3 harg3) K := by
  simp only [cc1__layer2_body_eq_skeleton]; unfold cc1__layer2_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero off0 inb_S400x16_S400x16_0_0 y⟩),
    View.canon_unit_zero off0, View.readAt_eq_ld, View.readAt_eq_ld, View.ld_unit_zero off0, View.ld_unit_zero off0]

/-! ## The proof data -/

/-- The proof data of pipeline 1 on core `c`: the invariant is the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 V c t := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Vals.lean ====
/-
  The TensorCore's buffer contents at each boundary of @main, from the launch memory `m`: after the four host
  operations (two transposes, two reshapes), after the first kernel region (its output array at what its write-backs
  leave), after the second. No item writes an argument array, so each argument ends as launched; the result array ends
  at what the second region's write-backs leave.
-/
import proofs.«164597_g45457933861167_cont_8to1c4_294_3_alg».proof.Proof.KI.Region0
import proofs.«164597_g45457933861167_cont_8to1c4_294_3_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operations (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## What the regions find: the arguments as launched -/

/-- The four host operations write only their own results: a reference that is none of the four is, after them,
    as launched. -/
private theorem W1_keep (c : Dev nD) (r : Ref sig .tc)
    (h0 : r ≠ main_call0_v0) (h1 : r ≠ main_call0_v1) (h2 : r ≠ main_call0_v2) (h3 : r ≠ main_call0_v3) :
    W1 m c (Proc.devRef .tc r) = m ((c : Thread nD τ).loc r) :=
  calc W1 m c (Proc.devRef .tc r)
    _ = W0 m c (Proc.devRef .tc r) := StableHlo.after_of_forall_not_mem (b := Proc.devRef .tc r) _ _
          (List.forall_iff_forall_mem.mp (by
            simp only [hostOps0, List.Forall, StableHlo.unary_writes, StableHlo.reshape_writes, Finset.mem_singleton]
            exact ⟨StableHlo.devRef_ne_of_ne h0, StableHlo.devRef_ne_of_ne h1, StableHlo.devRef_ne_of_ne h2,
              StableHlo.devRef_ne_of_ne h3⟩))
    _ = m ((c : Thread nD τ).loc r) := rfl

/-- No host operation writes an argument: the first region finds the features and the adjacency as launched. -/
theorem V1_main_arg0 (c : Dev nD) : V1 m c main_arg0 = m ((c : Thread nD τ).loc main_arg0) :=
  W1_keep m c main_arg0 (by decide) (by decide) (by decide) (by decide)
theorem V1_main_arg1 (c : Dev nD) : V1 m c main_arg1 = m ((c : Thread nD τ).loc main_arg1) :=
  W1_keep m c main_arg1 (by decide) (by decide) (by decide) (by decide)

/-- The second region finds the adjacency as launched. -/
theorem V2_main_arg1 (c : Dev nD) : V2 m c main_arg1 = m ((c : Thread nD τ).loc main_arg1) :=
  calc V2 m c main_arg1
    _ = V1 m c main_arg1 := (W2_arr m c 5).trans (((dat0 (V1 m) c).arrAt_in 5 rfl _).trans (A_eq0 (V1 m) c 5))
    _ = m ((c : Thread nD τ).loc main_arg1) := V1_main_arg1 m c
/-- The second region finds, in its resident operand, what the first region's write-backs left. -/
theorem V2_main_call0_v4 (c : Dev nD) : V2 m c main_call0_v4 = (dat0 (V1 m) c).arrAt 6 cfg0.N :=
  W2_arr m c 6

/-! ## The arguments end as launched, the result at what the second region leaves -/

/-- The features: no array of the second region, an input array of the first, no host operation's result. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = V1 m c main_arg0 := (W2_arr m c 0).trans (((dat0 (V1 m) c).arrAt_in 0 rfl _).trans (A_eq0 (V1 m) c 0))
    _ = m ((c : Thread nD τ).loc main_arg0) := V1_main_arg0 m c
/-- The adjacency: an input array of the second region, which found it as launched. -/
theorem W3_main_arg1 (c : Dev nD) : W3 m c (Proc.devRef .tc main_arg1) = m ((c : Thread nD τ).loc main_arg1) :=
  calc W3 m c (Proc.devRef .tc main_arg1)
    _ = V2 m c main_arg1 := (W3_arr m c 1).trans (((dat1 (V2 m) c).arrAt_in 1 rfl _).trans (A_eq1 (V2 m) c 1))
    _ = m ((c : Thread nD τ).loc main_arg1) := V2_main_arg1 m c
/-- The weights and biases: an array of neither region, and no host operation's result. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_keep m c main_arg2 (by decide) (by decide) (by decide) (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_keep m c main_arg3 (by decide) (by decide) (by decide) (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_keep m c main_arg4 (by decide) (by decide) (by decide) (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_keep m c main_arg5 (by decide) (by decide) (by decide) (by decide)
theorem W3_main_v0 (c : Dev nD) : W3 m c (Proc.devRef .tc main_v0) = (dat1 (V2 m) c).arrAt 2 cfg1.N :=
  W3_arr m c 2

end Cert.KernelIdeal.Hand

end
-- ==== Proof.KI.Run.lean ====
/-
  The run of @main: four host operations, the first kernel region, the second. Every weakly fair execution from a
  memory `m` with zero counters terminates without a fault, and every unscoped buffer of each core ends at the
  contents the boundaries' fold gives (`W3`): the arguments as launched, the result at what the second region's
  write-backs leave.
-/
import proofs.«164597_g45457933861167_cont_8to1c4_294_3_alg».proof.Proof.KI.Vals

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents: the first region's at what the host operations
    leave (`V1`), the second's at what the first region leaves (`V2`). -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A line of host operations as a segment over the unscoped references from the contents `W`, `R` riding along: it
    leaves those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor

/-- The last thread state without the `owes`: every unscoped buffer at the last boundary's contents `W3`, the generator
    register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- THE FIRST REGION over the thread state: entered from every unscoped buffer at `W1` (what the host operations
    leave), left at `W2` (its output array at what its write-backs leave, every other buffer as entered). Its arrays
    are split out of the unscoped buffers and put back at the exit contents; the generator register and the scoped
    buffers outside the pipeline enter the invariant before the first point and come back after the last, the scratch
    buffer's named contents forgotten; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Phi0_in (V1 m) c)
    unfold Pipeline.ΦA
    iintro ⟨Hp, -, Hr⟩
    isplitl [Hr]; · iexact Hr
    iexact Hp
  hout c := by
    rw [Pipeline.ownSems0_none]
    refine BIBase.Entails.trans (Phi0_out (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND REGION over the thread state: entered from every unscoped buffer at `W2` (what the first region leaves),
    left at `W3` (the result array at what its write-backs leave, every other buffer as entered), which the run reads
    at the end. The invariant is the scoped buffers outside the pipeline and the generator register at every point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the host operations from the launch contents, then the two regions. -/
abbrev segs : List (Pipeline.Seg (pcfgs (F := F)) adm (pdats m) () defs₀ 𝒱₀ L lv) :=
  [ .host (hseg hostOps0 hostOps0_sub hostOps0_fresh (W0 m)),
    .region (reg0 m),
    .region (reg1 m) ]
/-- @main is the run of the segments: the chain of its items, then the segments' run against that chain. -/
theorem main_run (c : Dev nD) : main (F := F) c = Pipeline.Seg.run (segs m) := (main_chain c).trans (by chain_rfl)

set_option backward.isDefEq.respectTransparency.types false in
/-- THE RUN: every unscoped buffer ends at `W3`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The run with the result array named and the arguments unchanged. -/
theorem run_value : θ_run defs (onTc (τ := τ) (main (F := F))) ⟨m, fun _ => 0, ρ⟩ (fun r => ∀ c : Dev nD,
      r.2.mem ((c.tc : Thread nD τ).loc main_v0) = (dat1 (V2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v0 (by decide))).trans (W3_main_v0 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_value m ρ)

end Cert.KernelIdeal.Hand

end
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.Spec.lean ====
import proofs.«164597_g45457933861167_cont_8to1c4_294_3_alg».proof.Proof.LibDenseDefs
import Idealize.ShloMosaic.PureOps.Ideal

/-!
# The two-layer dense graph convolution, entry by entry, on the extended reals

With `n2n` the map that sends `+∞` to `1` and `-∞` to `0` and keeps every other extended real (the extended reals
have no NaN, so the NaN arm of `nan_to_num` never fires), the result is

  `out = n2n (adj · (relu (n2n (adj · (n2n x · W1ᵀ + b1))) · W2ᵀ + b2))`

each product a plain sum over the contracted axis.
-/

noncomputable section

namespace Cert.Gcn

open Idealize.ShloMosaic Idealize.ShloMosaic.ValueIdx Cert.LibDense

/-- `nan_to_num(·, nan = 0, posinf = 1, neginf = 0)` on an extended real: `+∞ ↦ 1`, then `-∞ ↦ 0`. -/
def n2n (x : EReal) : EReal :=
  let y : EReal := Scalar.select (Ideal.cmp .oeq x (Ideal.ofBits .f32 0x7F800000#32)) (Ideal.ofBits .f32 0x3F800000#32) x
  Scalar.select (Ideal.cmp .oeq y (Ideal.ofBits .f32 0xFF800000#32)) (Ideal.ofBits .f32 0x00000000#32) y

/-- `n2n` entry by entry. -/
def n2nM {ι : Type} (x : ι → EReal) : ι → EReal := fun i => n2n (x i)

/-- The matrix product: entry `(p, q)` is `∑ k, a[p, k] · b[k, q]`. -/
def mm {M K N : Nat} (a : Mat M K) (b : Mat K N) : Mat M N :=
  fun i => ∑ k : Fin K, a (ix2 (i 0) k) * b (ix2 k (i 1))

/-- The transpose. -/
def tr {M N : Nat} (w : Mat M N) : Mat N M := fun i => w (ix2 (i 1) (i 0))

theorem mm_apply {M K N : Nat} (a : Mat M K) (b : Mat K N) (p : Fin M) (q : Fin N) :
    mm a b (ix2 p q) = ∑ k : Fin K, a (ix2 p k) * b (ix2 k q) := rfl

theorem tr_apply {M N : Nat} (w : Mat M N) (p : Fin N) (q : Fin M) : tr w (ix2 p q) = w (ix2 q p) := rfl

/-- The first dense layer on the cleaned features: `n2n x · W1ᵀ + b1`. -/
def feat (x : Mat 10000 128) (W1 : Mat 32 128) (b1 : Row 32) : Mat 10000 32 := lin (n2nM x) (tr W1) b1

/-- The hidden activations: `relu (n2n (adj · A))`. -/
def hidden (adj : Mat 10000 10000) (A : Mat 10000 32) : Mat 10000 32 := reluM (n2nM (mm adj A))

/-- The second dense layer: `H · W2ᵀ + b2`. -/
def proj (H : Mat 10000 32) (W2 : Mat 16 32) (b2 : Row 16) : Mat 10000 16 := lin H (tr W2) b2

/-- The output: `n2n (adj · B)`. -/
def agg (adj : Mat 10000 10000) (B : Mat 10000 16) : Mat 10000 16 := n2nM (mm adj B)

/-- The first dense layer as the kernel receives its operands: the weight already transposed (`128 × 32`), the bias a
    `1 × 32` row. -/
def featK (x : Mat 10000 128) (w1t : Mat 128 32) (b1r : Mat 1 32) : Mat 10000 32 :=
  fun i => (∑ d : Fin 128, n2n (x (ix2 (i 0) d)) * w1t (ix2 d (i 1))) + b1r (ix2 (0 : Fin 1) (i 1))

/-- The second dense layer as the kernel receives its operands: the weight already transposed (`32 × 16`), the bias a
    `1 × 16` row. -/
def projK (H : Mat 10000 32) (w2t : Mat 32 16) (b2r : Mat 1 16) : Mat 10000 16 :=
  fun i => (∑ l : Fin 32, H (ix2 (i 0) l) * w2t (ix2 l (i 1))) + b2r (ix2 (0 : Fin 1) (i 1))

theorem featK_apply (x : Mat 10000 128) (w1t : Mat 128 32) (b1r : Mat 1 32) (p : Fin 10000) (q : Fin 32) :
    featK x w1t b1r (ix2 p q) = (∑ d : Fin 128, n2n (x (ix2 p d)) * w1t (ix2 d q)) + b1r (ix2 (0 : Fin 1) q) := rfl

theorem projK_apply (H : Mat 10000 32) (w2t : Mat 32 16) (b2r : Mat 1 16) (p : Fin 10000) (q : Fin 16) :
    projK H w2t b2r (ix2 p q) = (∑ l : Fin 32, H (ix2 p l) * w2t (ix2 l q)) + b2r (ix2 (0 : Fin 1) q) := rfl

theorem hidden_apply (adj : Mat 10000 10000) (A : Mat 10000 32) (p : Fin 10000) (q : Fin 32) :
    hidden adj A (ix2 p q) = relu (n2n (∑ k : Fin 10000, adj (ix2 p k) * A (ix2 k q))) := rfl

theorem agg_apply (adj : Mat 10000 10000) (B : Mat 10000 16) (p : Fin 10000) (q : Fin 16) :
    agg adj B (ix2 p q) = n2n (∑ k : Fin 10000, adj (ix2 p k) * B (ix2 k q)) := rfl

/-- The whole network as one function of the six argument arrays. -/
def G (x : Mat 10000 128) (adj : Mat 10000 10000) (W1 : Mat 32 128) (b1 : Row 32) (W2 : Mat 16 32) (b2 : Row 16) :
    Mat 10000 16 :=
  agg adj (proj (hidden adj (feat x W1 b1)) W2 b2)

end Cert.Gcn

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibLayout.lean ====
import proofs.«164597_g45457933861167_cont_8to1c4_294_3_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.LibDense.lean ====
import proofs.«164597_g45457933861167_cont_8to1c4_294_3_alg».proof.Proof.LibDenseDefs
import proofs.«164597_g45457933861167_cont_8to1c4_294_3_alg».proof.Proof.LibContract
import proofs.«164597_g45457933861167_cont_8to1c4_294_3_alg».proof.Proof.LibLayout

/-!
# Dense layers on rows of extended reals, and the two spellings a program has for them

The dense layer `lin x w b = x · w + b` acts row by row: an entry of row `r` depends on row `r` of `x` only (`lin_rows`),
so the same definition at a block of rows and at the whole array is one function. The host's
`dot_general(x, w) + broadcast(b)` and a kernel's `matmul(bf16 x, bf16 w, 0) + broadcast(shape_cast b)` are both `lin x w b`
on the extended reals, where a change of float format is the identity.
-/

noncomputable section

namespace Cert.LibDense

open Idealize.ShloMosaic Idealize.ShloMosaic.ValueIdx

/-- An entry of row `r` of `x · w + b` is a function of row `r` of `x`, column `q` of `w` and `b[q]`. -/
theorem lin_rows {M M' K N : Nat} (x : Mat M K) (x' : Mat M' K) (w w' : Mat K N) (b b' : Row N) (r : Fin M) (r' : Fin M')
    (q : Fin N) (hx : ∀ k : Fin K, x (ix2 r k) = x' (ix2 r' k)) (hw : ∀ k : Fin K, w (ix2 k q) = w' (ix2 k q))
    (hb : b (ix1 q) = b' (ix1 q)) : lin x w b (ix2 r q) = lin x' w' b' (ix2 r' q) := by
  rw [lin_apply, lin_apply, hb]
  congr 1
  exact Finset.sum_congr rfl fun k _ => by rw [hx k, hw k]

/-- Row `r` of the join is row `r` of each part. -/
theorem cat_rows {M M' A B : Nat} (s : Mat M A) (d : Mat M B) (s' : Mat M' A) (d' : Mat M' B) (r : Fin M) (r' : Fin M')
    (hs : ∀ k : Fin A, s (ix2 r k) = s' (ix2 r' k)) (hd : ∀ k : Fin B, d (ix2 r k) = d' (ix2 r' k)) (k : Fin (A + B)) :
    cat s d (ix2 r k) = cat s' d' (ix2 r' k) := by
  by_cases h : k.val < A
  · have e : cat s d (ix2 r k) = s (ix2 r ⟨k.val, h⟩) := dif_pos h
    have e' : cat s' d' (ix2 r' k) = s' (ix2 r' ⟨k.val, h⟩) := dif_pos h
    rw [e, e']
    exact hs _
  · have e : cat s d (ix2 r k) = d (ix2 r ⟨k.val - A, by have := k.isLt; omega⟩) := dif_neg h
    have e' : cat s' d' (ix2 r' k) = d' (ix2 r' ⟨k.val - A, by have := k.isLt; omega⟩) := dif_neg h
    rw [e, e']
    exact hd _

/-! ## The printed layer is `lin` -/

/-- The host's `dot_general(x, w) + broadcast(b)` is `lin x w b`. -/
theorem hostLin_eq (M K N : Nat) (prec : Option ContractPrecision) (h₁ : (⟨1, ![N]⟩ : Shape).BroadcastsInDim ⟨2, ![1, N]⟩ ![1])
    (h₂ : (⟨2, ![1, N]⟩ : Shape).BroadcastsInDim ⟨2, ![M, N]⟩ ![0, 1])
    (x : FVec Ideal (⟨2, ![M, K]⟩ : Shape) .f32) (w : FVec Ideal (⟨2, ![K, N]⟩ : Shape) .f32) (b : FVec Ideal (⟨1, ![N]⟩ : Shape) .f32) :
    addf (Host.dotGeneral (DotDims.plain M K N) prec x w)
        (broadcastInDim ⟨2, ![M, N]⟩ ![0, 1] h₂ (broadcastInDim ⟨2, ![1, N]⟩ ![1] h₁ b))
      = lin x w b := by
  funext i
  obtain ⟨p, q, rfl⟩ : ∃ (p : Fin M) (q : Fin N), i = ix2 p q := ⟨i 0, i 1, eq_ix2 i⟩
  refine (addf_apply _ _ _).trans ?_
  rw [dotGeneral_plain_apply, hostBias_apply, lin_apply]

/-- A kernel's `matmul(bf16 x, bf16 w, 0) + broadcast(shape_cast b)` is `lin x w b`: at the extended reals the change of
    format is the identity. -/
theorem kernLin_eq (M K N : Nat) (prec : Option ContractPrecision) (hc : (⟨1, ![N]⟩ : Shape).ShapeCasts ⟨2, ![1, N]⟩)
    (hb : (⟨2, ![1, N]⟩ : Shape).Broadcasts ⟨2, ![M, N]⟩) (ht : FTy.bf16.bits < FTy.f32.bits)
    (x : FVec Ideal (⟨2, ![M, K]⟩ : Shape) .f32) (w : FVec Ideal (⟨2, ![K, N]⟩ : Shape) .f32) (b : FVec Ideal (⟨1, ![N]⟩ : Shape) .f32) :
    addf (matmul (DotDims.plain M K N) prec (truncf .bf16 x ht) (truncf .bf16 w ht)
          (constant (F := Ideal) (⟨2, ![M, N]⟩ : Shape) .f32 0x00000000#32))
        (broadcastTo ⟨2, ![M, N]⟩ (shapeCast ⟨2, ![1, N]⟩ b hc) hb)
      = lin x w b := by
  funext i
  obtain ⟨p, q, rfl⟩ : ∃ (p : Fin M) (q : Fin N), i = ix2 p q := ⟨i 0, i 1, eq_ix2 i⟩
  refine (addf_apply _ _ _).trans ?_
  rw [matmul_plain_zero_apply, kernBias_apply, lin_apply]
  rfl

end Cert.LibDense

end
-- ==== Proof.KI.Pay.lean ====
/-
  The three stored values of the two kernels, read at an entry on the extended reals. Each is a composition of
  entry-by-entry operations with plain matrix products into a zero accumulator, so at entry `(p, q)`:
  the feature matrix is  ∑ d, n2n x[p, d] · w[d, q] + b[0, q];  the first kernel's output block is
  ∑ l, relu (n2n (∑ k, a[p, k] · s[k, l])) · w₂[l, q] + b₂[0, q];  the second kernel's is  n2n (∑ k, a[p, k] · B[k, q]).
  The NaN arm of `nan_to_num` compares a value with itself, which on the extended reals never differs.
-/
import proofs.«164597_g45457933861167_cont_8to1c4_294_3_alg».proof.Proof.Gen.KernelIdeal.Skeleton
import proofs.«164597_g45457933861167_cont_8to1c4_294_3_alg».proof.Proof.Spec
import proofs.«164597_g45457933861167_cont_8to1c4_294_3_alg».proof.Proof.LibDense
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen Cert.LibDense Cert.Gcn

/-! ## The printed contraction records are the plain contraction -/

theorem dotA_eq : dot_S10000x128_S128x32_S10000x32_1_0_0_1_n_n = DotDims.plain 10000 128 32 := rfl
theorem dotB_eq : dot_S400x10000_S10000x32_S400x32_1_0_0_1_n_n = DotDims.plain 400 10000 32 := rfl
theorem dotC_eq : dot_S400x32_S32x16_S400x16_1_0_0_1_n_n = DotDims.plain 400 32 16 := rfl
theorem dotD_eq : dot_S400x10000_S10000x16_S400x16_1_0_0_1_n_n = DotDims.plain 400 10000 16 := rfl

/-! ## `nan_to_num` at an entry -/

/-- A value never differs from itself, so the select on `x ≠ x` keeps `x`. -/
theorem sel_self_ne (x a : EReal) : Scalar.select (Ideal.cmp .one x x) a x = x := by
  unfold Scalar.select Ideal.cmp
  simp

/-- The three selects of `nan_to_num` on an array, read at an entry: with `y` the array after the NaN arm and `z`
    the array after the `+∞` arm, the `-∞` arm of `z` at `i` is `n2n (v i)`. -/
theorem n2n_sel {s : Shape} (v y z : FVec Ideal s .f32) (a : Ideal .f32)
    (hy : y = select (cmpf .one v v) (broadcast s a) v)
    (hz : z = select (cmpf .oeq y (broadcast s (Scalar.ofBits (F := Ideal) .f32 0x7F800000#32)))
      (broadcast s (Scalar.ofBits (F := Ideal) .f32 0x3F800000#32)) y) (i : s.Idx) :
    select (cmpf .oeq z (broadcast s (Scalar.ofBits (F := Ideal) .f32 0xFF800000#32)))
      (broadcast s (Scalar.ofBits (F := Ideal) .f32 0x00000000#32)) z i = n2n (v i) := by
  have hyi : y i = v i := by
    rw [hy]
    exact sel_self_ne (v i) a
  subst hz
  show Scalar.select (Ideal.cmp .oeq (Scalar.select (Ideal.cmp .oeq (y i) (Ideal.ofBits .f32 0x7F800000#32))
        (Ideal.ofBits .f32 0x3F800000#32) (y i)) (Ideal.ofBits .f32 0xFF800000#32)) (Ideal.ofBits .f32 0x00000000#32)
      (Scalar.select (Ideal.cmp .oeq (y i) (Ideal.ofBits .f32 0x7F800000#32)) (Ideal.ofBits .f32 0x3F800000#32) (y i))
    = n2n (v i)
  rw [hyi]
  rfl

/-- A `[1, N]` row broadcast to `[M, N]` reads the row's entry `(0, q)` at `(p, q)`. -/
theorem rowBias_apply {α : Type} (M N : Nat) (hb : (⟨2, ![1, N]⟩ : Shape).Broadcasts ⟨2, ![M, N]⟩)
    (b : (⟨2, ![1, N]⟩ : Shape).Idx → α) (p : Fin M) (q : Fin N) :
    broadcastTo ⟨2, ![M, N]⟩ b hb (ix2 p q) = b (ix2 (0 : Fin 1) q) := by
  have hq := q.isLt
  refine broadcastTo_apply b hb (ix2 p q) (ix2 (0 : Fin 1) q) ?_
  intro a
  match a with
  | ⟨0, _⟩ => exact (if_pos rfl).symm
  | ⟨1, _⟩ =>
    show q.val = if N = 1 then 0 else q.val
    split
    · omega
    · rfl

/-! ## The three stored values at an entry -/

/-- The feature matrix at an entry. -/
theorem pay1_apply (x : Vec Ideal S10000x128 .f32) (w : Vec Ideal S128x32 .f32) (b : Vec Ideal S1x32 .f32)
    (p : Fin 10000) (q : Fin 32) :
    k0_pay1 (F := Ideal) x w b (ix2 p q)
      = (∑ d : Fin 128, n2n (x (ix2 p d)) * w (ix2 d q)) + b (ix2 (0 : Fin 1) q) := by
  unfold k0_pay1
  -- the three shape casts are to the same shape
  rw [shapeCast_self, shapeCast_self, shapeCast_self]
  refine (addf_apply _ _ _).trans ?_
  rw [dotA_eq]
  congr 1
  -- the product of the cleaned features with the weight
  · refine (matmul_plain_zero_apply 10000 128 32 none _ _ p q).trans ?_
    refine Finset.sum_congr rfl fun d _ => ?_
    congr 1
    exact n2n_sel _ _ _ _ rfl rfl _
  -- the bias row
  · exact rowBias_apply 10000 32 _ b p q

/-- The first kernel's output block at an entry. -/
theorem pay2_apply (a : Vec Ideal S400x10000 .f32) (s : Vec Ideal S10000x32 .f32) (w2 : Vec Ideal S32x16 .f32)
    (b2 : Vec Ideal S1x16 .f32) (r : Fin 400) (q : Fin 16) :
    k0_pay2 (F := Ideal) a s w2 b2 (ix2 r q)
      = (∑ l : Fin 32, relu (n2n (∑ k : Fin 10000, a (ix2 r k) * s (ix2 k l))) * w2 (ix2 l q)) + b2 (ix2 (0 : Fin 1) q) := by
  unfold k0_pay2
  rw [shapeCast_self, shapeCast_self]
  refine (addf_apply _ _ _).trans ?_
  rw [dotC_eq, dotB_eq]
  congr 1
  -- the product of the hidden activations with the second weight
  · refine (matmul_plain_zero_apply 400 32 16 none _ _ r q).trans ?_
    refine Finset.sum_congr rfl fun l _ => ?_
    congr 1
    -- the maximum against the zero splat is relu, of the cleaned aggregation
    refine (congrFun (kernRelu_eq _) (ix2 r l)).trans ?_
    refine congrArg relu ?_
    refine (n2n_sel _ _ _ _ rfl rfl _).trans ?_
    exact congrArg n2n (matmul_plain_zero_apply 400 10000 32 none a s r l)
  -- the bias row
  · exact rowBias_apply 400 16 _ b2 r q

/-- The second kernel's output block at an entry. -/
theorem pay3_apply (a : Vec Ideal S400x10000 .f32) (bm : Vec Ideal S10000x16 .f32) (r : Fin 400) (q : Fin 16) :
    k1_pay1 (F := Ideal) a bm (ix2 r q) = n2n (∑ k : Fin 10000, a (ix2 r k) * bm (ix2 k q)) := by
  unfold k1_pay1
  rw [shapeCast_self, dotD_eq]
  refine (n2n_sel _ _ _ _ rfl rfl _).trans ?_
  exact congrArg n2n (matmul_plain_zero_apply 400 10000 16 none a bm r q)

end Cert.KernelIdeal.Hand

end
-- ==== Proof.KI.Final0.lean ====
/-
  What the first kernel region leaves in its output array, as one function of the contents it finds: block `t` of the
  10000 × 16 array (rows 400 t … 400 t + 399) is what point `t` stored, the 25 blocks tile the array, and the stored
  block is, entry by entry, the second dense layer of the rectified, cleaned product of the point's adjacency rows with
  the feature matrix. Row `400 t + r` of the adjacency is row `r` of its block at `t`, so the array is
  `projK (hidden adj (featK x w₁ᵗ b₁)) w₂ᵗ b₂` of the region's operands.
-/
import proofs.«164597_g45457933861167_cont_8to1c4_294_3_alg».proof.Proof.KI.Region0
import proofs.«164597_g45457933861167_cont_8to1c4_294_3_alg».proof.Proof.KI.Pay
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.LibDense Cert.Gcn

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## Where the windows' blocks sit -/

/-- The printed index maps over the 25 points: the five resident windows stay at block (0, 0); the adjacency and the
    output move down the rows, block (t, 0) at point `t`. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature block at any point is the whole feature array. -/
theorem iblk0_0_apply (c : Dev nD) (t : Fin cfg0.N) (p : Fin 10000) (d : Fin 128) :
    (iblk0 (F := Ideal) V c 0 t : Vec Ideal S10000x128 .f32) (ix2 p d) = (V c main_arg0 : S10000x128.Idx → EReal) (ix2 p d) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 10000 + 1 * p.val = p.val; rw [e0]; omega
  | ⟨1, _⟩ => show win0_0.index t (1 : Fin 2) * 128 + 1 * d.val = d.val; rw [e1]; omega

/-- The first weight block at any point is the whole (transposed) weight. -/
theorem iblk0_1_apply (c : Dev nD) (t : Fin cfg0.N) (d : Fin 128) (q : Fin 32) :
    (iblk0 (F := Ideal) V c 1 t : Vec Ideal S128x32 .f32) (ix2 d q) = (V c main_call0_v0 : S128x32.Idx → EReal) (ix2 d q) := by
  obtain ⟨-, -, e0, e1, -⟩ := idx_facts0 t
  unfold iblk0
  rw [View.read_apply]
  show V c main_call0_v0 _ = V c main_call0_v0 _
  congr 1
  funext a
  apply Fin.ext
  match a with
  | ⟨0, _⟩ => show win0_1.index t (0 : Fin 2) * 128 + 1 * d.val = d.val; rw [e0]; omega
  | ⟨1, _⟩ => show win0_1.index t (1 : Fin 2) * 32 + 1 * q.val = q.val; rw [e1]; omega

/-- The first bias block at any point is the whole bias row. -/
theorem iblk0_2_apply (c : Dev nD) (t : Fin cfg0.N) (z : Fin 1) (q : Fin 32) :
    (iblk0 (F := Ideal) V c 2 t : Vec Ideal S1x32 .f32) (ix2 z q) = (V c main_call0_v2 : S1x32.Idx → EReal) (ix2 z q) := by
  obtain ⟨-, -, -, -, e0, e1, -⟩ := idx_facts0 t
  unfold iblk0
  rw [View.read_apply]
  show V c main_call0_v2 _ = V c main_call0_v2 _
  congr 1
  funext a
  apply Fin.ext
  match a with
  | ⟨0, _⟩ => show win0_2.index t (0 : Fin 2) * 1 + 1 * z.val = z.val; rw [e0]; omega
  | ⟨1, _⟩ => show win0_2.index t (1 : Fin 2) * 32 + 1 * q.val = q.val; rw [e1]; omega

/-- The second weight block at any point is the whole (transposed) weight. -/
theorem iblk0_3_apply (c : Dev nD) (t : Fin cfg0.N) (l : Fin 32) (q : Fin 16) :
    (iblk0 (F := Ideal) V c 3 t : Vec Ideal S32x16 .f32) (ix2 l q) = (V c main_call0_v1 : S32x16.Idx → EReal) (ix2 l q) := by
  obtain ⟨-, -, -, -, -, -, e0, e1, -⟩ := idx_facts0 t
  unfold iblk0
  rw [View.read_apply]
  show V c main_call0_v1 _ = V c main_call0_v1 _
  congr 1
  funext a
  apply Fin.ext
  match a with
  | ⟨0, _⟩ => show win0_3.index t (0 : Fin 2) * 32 + 1 * l.val = l.val; rw [e0]; omega
  | ⟨1, _⟩ => show win0_3.index t (1 : Fin 2) * 16 + 1 * q.val = q.val; rw [e1]; omega

/-- The second bias block at any point is the whole bias row. -/
theorem iblk0_4_apply (c : Dev nD) (t : Fin cfg0.N) (z : Fin 1) (q : Fin 16) :
    (iblk0 (F := Ideal) V c 4 t : Vec Ideal S1x16 .f32) (ix2 z q) = (V c main_call0_v3 : S1x16.Idx → EReal) (ix2 z q) := by
  obtain ⟨-, -, -, -, -, -, -, -, e0, e1, -⟩ := idx_facts0 t
  unfold iblk0
  rw [View.read_apply]
  show V c main_call0_v3 _ = V c main_call0_v3 _
  congr 1
  funext a
  apply Fin.ext
  match a with
  | ⟨0, _⟩ => show win0_4.index t (0 : Fin 2) * 1 + 1 * z.val = z.val; rw [e0]; omega
  | ⟨1, _⟩ => show win0_4.index t (1 : Fin 2) * 16 + 1 * q.val = q.val; rw [e1]; omega

/-- Row `r` of the adjacency block at point `t` is row `400 t + r` of the adjacency. -/
theorem iblk0_5_apply (c : Dev nD) (t : Fin cfg0.N) (r : Fin 400) (k : Fin 10000) (ρ : Fin 10000)
    (hρ : ρ.val = t.val * 400 + r.val) :
    (iblk0 (F := Ideal) V c 5 t : Vec Ideal S400x10000 .f32) (ix2 r k) = (V c main_arg1 : S10000x10000.Idx → EReal) (ix2 ρ k) := by
  obtain ⟨-, -, -, -, -, -, -, -, -, -, e0, e1, -⟩ := idx_facts0 t
  unfold iblk0
  rw [View.read_apply]
  show V c main_arg1 _ = V c main_arg1 _
  congr 1
  funext a
  apply Fin.ext
  match a with
  | ⟨0, _⟩ => show win0_5.index t (0 : Fin 2) * 400 + 1 * r.val = ρ.val; rw [e0, hρ]; omega
  | ⟨1, _⟩ => show win0_5.index t (1 : Fin 2) * 10000 + 1 * k.val = k.val; rw [e1]; omega

/-! ## The stored values, entry by entry, over any operands that read as the arrays -/

/-- The feature matrix of blocks that read as the arrays `X`, `W`, `B` is `featK X W B`. -/
theorem featK_of_blocks0 (x : Vec Ideal S10000x128 .f32) (w : Vec Ideal S128x32 .f32) (b : Vec Ideal S1x32 .f32)
    (X : Mat 10000 128) (W : Mat 128 32) (B : Mat 1 32)
    (hx : ∀ p d, x (ix2 p d) = X (ix2 p d)) (hw : ∀ d q, w (ix2 d q) = W (ix2 d q))
    (hb : ∀ q, b (ix2 (0 : Fin 1) q) = B (ix2 (0 : Fin 1) q)) (p : Fin 10000) (q : Fin 32) :
    k0_pay1 (F := Ideal) x w b (ix2 p q) = featK X W B (ix2 p q) := by
  rw [pay1_apply, featK_apply, hb q]
  congr 1
  exact Finset.sum_congr rfl fun d _ => by rw [hx p d, hw d q]

/-- The output block of an adjacency block whose row `r` is row `ρ` of `adj`, over a scratch that reads as `A` and
    second-layer operands that read as `W2`, `B2`: row `r` of the block is row `ρ` of `projK (hidden adj A) W2 B2`. -/
theorem projK_row_of_blocks0 (a : Vec Ideal S400x10000 .f32) (s : Vec Ideal S10000x32 .f32) (w2 : Vec Ideal S32x16 .f32)
    (b2 : Vec Ideal S1x16 .f32) (adj : Mat 10000 10000) (A : Mat 10000 32) (W2 : Mat 32 16) (B2 : Mat 1 16)
    (r : Fin 400) (ρ : Fin 10000) (q : Fin 16)
    (ha : ∀ k, a (ix2 r k) = adj (ix2 ρ k)) (hs : ∀ k l, s (ix2 k l) = A (ix2 k l))
    (hw : ∀ l, w2 (ix2 l q) = W2 (ix2 l q)) (hb : b2 (ix2 (0 : Fin 1) q) = B2 (ix2 (0 : Fin 1) q)) :
    k0_pay2 (F := Ideal) a s w2 b2 (ix2 r q) = projK (hidden adj A) W2 B2 (ix2 ρ q) := by
  rw [pay2_apply, projK_apply, hb]
  congr 1
  refine Finset.sum_congr rfl fun l _ => ?_
  rw [hidden_apply, hw l]
  congr 3
  exact Finset.sum_congr rfl fun k _ => by rw [ha k, hs k l]

/-! ## The region's output as one function of its operands -/

/-- The scratch, entry by entry: the feature matrix of the region's first three operands. -/
theorem scr0_apply (c : Dev nD) (k : Fin 10000) (l : Fin 32) :
    scr0 (F := Ideal) V c (ix2 k l)
      = featK (V c main_arg0) (V c main_call0_v0) (V c main_call0_v2) (ix2 k l) := by
  unfold scr0
  exact featK_of_blocks0 _ _ _ _ _ _ (fun p d => iblk0_0_apply V c t₀ p d) (fun d q => iblk0_1_apply V c t₀ d q)
    (fun q => iblk0_2_apply V c t₀ 0 q) k l

/-- What the output array ends holding. -/
abbrev regionOut0 (c : Dev nD) : Mat 10000 16 :=
  projK (hidden (V c main_arg1) (featK (V c main_arg0) (V c main_call0_v0) (V c main_call0_v2)))
    (V c main_call0_v1) (V c main_call0_v3)

/-- What point `t` writes back is block `t` of `regionOut0`. -/
theorem flushed0_6_eq (c : Dev nD) (t : Fin cfg0.N) :
    (dat0 (F := Ideal) V c).flushed 6 t = ((cfg0.win 6).blk t).view.read (Elt Ideal) (regionOut0 V c) := by
  show (cfg0.win 6).cut (grid0.coords t) ((dat0 (F := Ideal) V c).after 6 t) = _
  rw [after0_6]
  funext y
  obtain ⟨r, q, rfl⟩ : ∃ (r : Fin 400) (q : Fin 16), y = ix2 r q := ⟨y 0, y 1, eq_ix2 y⟩
  obtain ⟨-, -, -, -, -, -, -, -, -, -, -, -, e0, e1⟩ := idx_facts0 t
  have hN : cfg0.N = 25 := N_0
  have hρ : t.val * 400 + r.val < 10000 := by have := t.isLt; have := r.isLt; omega
  rw [View.read_apply]
  have hemb : ((cfg0.win 6).blk t).view.emb (ix2 r q) = (ix2 ⟨t.val * 400 + r.val, hρ⟩ q : S10000x16.Idx) := by
    funext a
    apply Fin.ext
    match a with
    | ⟨0, _⟩ => show win0_6.index t (0 : Fin 2) * 400 + 1 * r.val = t.val * 400 + r.val; rw [e0]; omega
    | ⟨1, _⟩ => show win0_6.index t (1 : Fin 2) * 16 + 1 * q.val = q.val; rw [e1]; omega
  show out0_6 V c t (ix2 r q) = regionOut0 V c (((cfg0.win 6).blk t).view.emb (ix2 r q))
  rw [hemb]
  unfold out0_6
  exact projK_row_of_blocks0 _ _ _ _ _ _ _ _ r ⟨t.val * 400 + r.val, hρ⟩ q (fun k => iblk0_5_apply V c t r k _ rfl)
    (fun k l => scr0_apply V c k l) (fun l => iblk0_3_apply V c t l q) (iblk0_4_apply V c t 0 q)

/-! ## The blocks tile the array -/

/-- An index of the output array is in point `t`'s block iff each coordinate is in the block's range on its axis. -/
theorem mem_blk0_6 (t : Fin cfg0.N) (i : S10000x16.Idx) :
    i ∈ ((cfg0.win 6).blk t).view.set ↔ ∀ a : Fin 2, win0_6.index t a * S400x16.size a ≤ (i a).val
      ∧ (i a).val < win0_6.index t a * S400x16.size a + S400x16.size a := by
  show i ∈ ((View.whole main_call0_v4).slice (win0_6.rect t)).set ↔ _
  rw [View.set_slice_whole, Rect.mem_set_unit]
  exact Iff.rfl

/-- Row `ρ` of the output lies in the block of point `ρ / 400`. -/
theorem cover0_6 (i : S10000x16.Idx) :
    ∃ t : Fin cfg0.N, (cfg0.win 6).flush t = true ∧ i ∈ ((cfg0.win 6).blk t).view.set := by
  have hi0 : (i 0).val < 10000 := (i 0).isLt
  have hi1 : (i 1).val < 16 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, -, -, -, -, e0, e1⟩ := idx_facts0 t
  refine ⟨t, flush0_6 t, ?_⟩
  rw [mem_blk0_6]
  intro a
  match a with
  | ⟨0, _⟩ =>
    show win0_6.index t (0 : Fin 2) * 400 ≤ (i 0).val ∧ (i 0).val < win0_6.index t (0 : Fin 2) * 400 + 400
    rw [e0, ht]; omega
  | ⟨1, _⟩ =>
    show win0_6.index t (1 : Fin 2) * 16 ≤ (i 1).val ∧ (i 1).val < win0_6.index t (1 : Fin 2) * 16 + 16
    rw [e1]; omega

/-- The first region's output array after the region. -/
theorem final0 (c : Dev nD) :
    (dat0 (F := Ideal) V c).arrAt 6 cfg0.N
      = projK (hidden (V c main_arg1) (featK (V c main_arg0) (V c main_call0_v0) (V c main_call0_v2)))
          (V c main_call0_v1) (V c main_call0_v3) :=
  (dat0 (F := Ideal) V c).arrAt_eq_of_cover 6 (regionOut0 V c) (fun t _ => flushed0_6_eq V c t) cover0_6

end Cert.KernelIdeal.Hand

end
-- ==== Proof.KI.Final1.lean ====
/-
  What the second kernel region leaves in its output array, as one function of the contents it finds: block `t` of the
  10000 × 16 result (rows 400 t … 400 t + 399) is what point `t` stored, the 25 blocks tile the array, and the stored
  block is, entry by entry, the cleaned product of the point's adjacency rows with the resident 10000 × 16 operand.
  Row `400 t + r` of the adjacency is row `r` of its block at `t`, so the array is `agg adj B`.
-/
import proofs.«164597_g45457933861167_cont_8to1c4_294_3_alg».proof.Proof.KI.Region1
import proofs.«164597_g45457933861167_cont_8to1c4_294_3_alg».proof.Proof.KI.Pay
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.LibDense Cert.Gcn

variable {F : FTy → Type} [FloatOps F]

local notation "𝕄" => MT nD τ sig Unit (Elt F) ℕ (UR sig nD τ) ℕ

variable (V : (c : Dev nD) → (b : Ref sig .tc) → Buf (Elt Ideal) ((c : Thread nD τ).loc b))

/-! ## Where the windows' blocks sit -/

/-- The three index maps, decided over the grid's 25 points: the resident operand's block index is `(0, 0)`, the
    adjacency's and the output's is `(t, 0)`. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- A point of the grid is below 25. -/
theorem point_lt1 (t : Fin cfg1.N) : t.val < 25 := Nat.lt_of_lt_of_eq t.isLt N_1

/-- Row `r` of the adjacency block at point `t` is row `400 t + r` of the adjacency. -/
theorem adj_blk (c : Dev nD) (t : Fin cfg1.N) (r : Fin 400) (k : Fin 10000) (h : 400 * t.val + r.val < 10000) :
    (iblk1 V c 1 t : Vec Ideal S400x10000 .f32) (ix2 r k)
      = (V c main_arg1 : Mat 10000 10000) (ix2 ⟨400 * t.val + r.val, h⟩ k) := by
  obtain ⟨-, -, e0, e1, -, -⟩ := idx_facts1 t
  unfold iblk1
  rw [View.read_apply]
  show V c main_arg1 _ = V c main_arg1 _
  congr 1
  funext a
  apply Fin.ext
  match a with
  | ⟨0, _⟩ => show win1_1.index t 0 * 400 + 1 * r.val = 400 * t.val + r.val; rw [e0]; omega
  | ⟨1, _⟩ => show win1_1.index t 1 * 10000 + 1 * k.val = k.val; rw [e1]; omega

/-- The resident operand's block at every point is the whole array. -/
theorem res_blk (c : Dev nD) (t : Fin cfg1.N) (k : Fin 10000) (q : Fin 16) :
    (iblk1 V c 0 t : Vec Ideal S10000x16 .f32) (ix2 k q) = (V c main_call0_v4 : Mat 10000 16) (ix2 k q) := by
  obtain ⟨e0, e1, -, -, -, -⟩ := idx_facts1 t
  unfold iblk1
  rw [View.read_apply]
  show V c main_call0_v4 _ = V c main_call0_v4 _
  congr 1
  funext a
  apply Fin.ext
  match a with
  | ⟨0, _⟩ => show win1_0.index t 0 * 10000 + 1 * k.val = k.val; rw [e0]; omega
  | ⟨1, _⟩ => show win1_0.index t 1 * 16 + 1 * q.val = q.val; rw [e1]; omega

/-! ## What a point writes back -/

/-- Point `t` writes back block `t` of `agg adj B`: entry `(r, q)` of the stored block is the cleaned sum over `k` of
    the block's row `r` against column `q` of the resident operand, and that row is row `400 t + r` of the adjacency. -/
theorem flushed1_eq (c : Dev nD) (t : Fin cfg1.N) :
    (dat1 (F := Ideal) V c).flushed 2 t
      = ((cfg1.win 2).blk t).view.read (Elt Ideal) (agg (V c main_arg1) (V c main_call0_v4)) := by
  show (cfg1.win 2).cut (grid1.coords t) ((dat1 (F := Ideal) V c).after 2 t) = _
  rw [after1_2]
  funext y
  obtain ⟨r, q, rfl⟩ : ∃ (r : Fin 400) (q : Fin 16), y = ix2 r q := ⟨y 0, y 1, eq_ix2 y⟩
  have ht : t.val < 25 := point_lt1 t
  have hr : 400 * t.val + r.val < 10000 := by have := r.isLt; omega
  obtain ⟨-, -, -, -, e0, e1⟩ := idx_facts1 t
  rw [View.read_apply]
  show out1_2 V c t (ix2 r q) = agg (V c main_arg1) (V c main_call0_v4) (((cfg1.win 2).blk t).view.emb (ix2 r q))
  have hemb : ((cfg1.win 2).blk t).view.emb (ix2 r q) = ix2 ⟨400 * t.val + r.val, hr⟩ q := by
    funext a
    apply Fin.ext
    match a with
    | ⟨0, _⟩ => show win1_2.index t 0 * 400 + 1 * r.val = 400 * t.val + r.val; rw [e0]; omega
    | ⟨1, _⟩ => show win1_2.index t 1 * 16 + 1 * q.val = q.val; rw [e1]; omega
  rw [hemb, agg_apply]
  unfold out1_2
  refine (pay3_apply (iblk1 V c 1 t) (iblk1 V c 0 t) r q).trans ?_
  refine congrArg n2n (Finset.sum_congr rfl fun k _ => ?_)
  rw [adj_blk V c t r k hr, res_blk V c t k q]

/-! ## The blocks tile the array -/

/-- An index of the output array is in point `t`'s block iff each coordinate is in the block's range on its axis. -/
theorem mem_blk1_2 (t : Fin cfg1.N) (i : S10000x16.Idx) :
    i ∈ ((cfg1.win 2).blk t).view.set
      ↔ ∀ a : Fin 2, win1_2.index t a * S400x16.size a ≤ (i a).val
          ∧ (i a).val < win1_2.index t a * S400x16.size a + S400x16.size a := by
  show i ∈ ((View.whole main_v0).slice (win1_2.rect t)).set ↔ _
  rw [View.set_slice_whole, Rect.mem_set_unit]
  exact Iff.rfl

/-- Row `ρ` of the output lies in the block of point `ρ / 400`, and every point writes its block back. -/
theorem cover1_2 (i : S10000x16.Idx) :
    ∃ t : Fin cfg1.N, (cfg1.win 2).flush t = true ∧ i ∈ ((cfg1.win 2).blk t).view.set := by
  have hi0 : (i 0).val < 10000 := (i 0).isLt
  have hi1 : (i 1).val < 16 := (i 1).isLt
  have hN : cfg1.N = 25 := N_1
  obtain ⟨t, htv⟩ : ∃ t : Fin cfg1.N, t.val = (i 0).val / 400 := ⟨⟨(i 0).val / 400, by rw [hN]; omega⟩, rfl⟩
  obtain ⟨-, -, -, -, e0, e1⟩ := idx_facts1 t
  refine ⟨t, flush1_2 t, ?_⟩
  rw [mem_blk1_2]
  intro a
  match a with
  | ⟨0, _⟩ =>
    show win1_2.index t 0 * 400 ≤ (i 0).val ∧ (i 0).val < win1_2.index t 0 * 400 + 400
    rw [e0, htv]; omega
  | ⟨1, _⟩ =>
    show win1_2.index t 1 * 16 ≤ (i 1).val ∧ (i 1).val < win1_2.index t 1 * 16 + 16
    rw [e1]; omega

/-! ## The array -/

/-- The second region's output array after the region. -/
theorem final1 (c : Dev nD) :
    (dat1 (F := Ideal) V c).arrAt 2 cfg1.N = agg (V c main_arg1) (V c main_call0_v4) :=
  (dat1 (F := Ideal) V c).arrAt_eq_of_cover 2 (agg (V c main_arg1) (V c main_call0_v4))
    (fun t _ => flushed1_eq V c t) cover1_2

end Cert.KernelIdeal.Hand

end
-- ==== Proof.KI.Value.lean ====
/-
  The kernel program's result as one function of its six argument arrays, on the extended reals. The host operations
  before the first region transpose the two weight matrices and lay the two bias vectors as rows; read at an entry they
  are the transposes and the biases of the specification. The first region leaves `proj (hidden adj (feat x W1 b1)) W2 b2`
  in its output array, the second region reads that array and the adjacency as launched and leaves `agg adj ·` of it:
  the network `G`.
-/
import proofs.«164597_g45457933861167_cont_8to1c4_294_3_alg».proof.Proof.KI.Vals
import proofs.«164597_g45457933861167_cont_8to1c4_294_3_alg».proof.Proof.KI.Final0
import proofs.«164597_g45457933861167_cont_8to1c4_294_3_alg».proof.Proof.KI.Final1
import proofs.«164597_g45457933861167_cont_8to1c4_294_3_alg».proof.Proof.KI.Pay
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.LibDense Cert.Gcn

variable {F : FTy → Type} [FloatOps F]

local notation "𝕄" => MT nD τ sig Unit (Elt F) ℕ (UR sig nD τ) ℕ

variable (m : (ℓ : Loc nD τ sig) → Buf (Elt Ideal) ℓ)

/-! ## The host operations read at an entry -/

/-- The first weight as the first region finds it: the transpose of the launched `32 × 128` matrix. -/
theorem V1_w1t (c : Dev nD) (d : Fin 128) (q : Fin 32) :
    V1 m c main_call0_v0 (ix2 d q) = m ((c : Thread nD τ).loc main_arg2) (ix2 q d) := by
  -- the buffer holds the transpose of the launched matrix: the one host operation that writes it
  have e : (V1 m c main_call0_v0 : S128x32.Idx → EReal)
      = transpose S128x32 [1, 0] (m ((c : Thread nD τ).loc main_arg2)) transposes_S32x128_S128x32_1_0 := by
    dsimp only [V1, W1, hostOps0]; after_results; rfl
  exact (congrFun e (ix2 d q)).trans (transpose_ix2_apply _ _ d q)
/-- The second weight as the first region finds it: the transpose of the launched `16 × 32` matrix. -/
theorem V1_w2t (c : Dev nD) (l : Fin 32) (q : Fin 16) :
    V1 m c main_call0_v1 (ix2 l q) = m ((c : Thread nD τ).loc main_arg4) (ix2 q l) := by
  have e : (V1 m c main_call0_v1 : S32x16.Idx → EReal)
      = transpose S32x16 [1, 0] (m ((c : Thread nD τ).loc main_arg4)) transposes_S16x32_S32x16_1_0 := by
    dsimp only [V1, W1, hostOps0]; after_results; rfl
  exact (congrFun e (ix2 l q)).trans (transpose_ix2_apply _ _ l q)
/-- The first bias as the first region finds it: the launched vector laid as a `1 × 32` row. -/
theorem V1_b1r (c : Dev nD) (q : Fin 32) :
    V1 m c main_call0_v2 (ix2 (0 : Fin 1) q) = m ((c : Thread nD τ).loc main_arg3) (ix1 q) := by
  -- the buffer holds the launched vector reshaped to one row
  have e : (V1 m c main_call0_v2 : S1x32.Idx → EReal)
      = shapeCast S1x32 (m ((c : Thread nD τ).loc main_arg3)) shapeCasts_S32_S1x32 := by
    dsimp only [V1, W1, hostOps0]; after_results; rfl
  refine (congrFun e (ix2 (0 : Fin 1) q)).trans ?_
  -- a reshape keeps the row-major position: 0 * 32 + q = q
  refine shapeCast_apply _ shapeCasts_S32_S1x32 (ix2 (0 : Fin 1) q) (ix1 q) ?_
  rw [Shape.rowMajor_val_one, Shape.rowMajor_val_two]
  show q.val = 0 * 32 + q.val
  omega
/-- The second bias as the first region finds it: the launched vector laid as a `1 × 16` row. -/
theorem V1_b2r (c : Dev nD) (q : Fin 16) :
    V1 m c main_call0_v3 (ix2 (0 : Fin 1) q) = m ((c : Thread nD τ).loc main_arg5) (ix1 q) := by
  have e : (V1 m c main_call0_v3 : S1x16.Idx → EReal)
      = shapeCast S1x16 (m ((c : Thread nD τ).loc main_arg5)) shapeCasts_S16_S1x16 := by
    dsimp only [V1, W1, hostOps0]; after_results; rfl
  refine (congrFun e (ix2 (0 : Fin 1) q)).trans ?_
  refine shapeCast_apply _ shapeCasts_S16_S1x16 (ix2 (0 : Fin 1) q) (ix1 q) ?_
  rw [Shape.rowMajor_val_one, Shape.rowMajor_val_two]
  show q.val = 0 * 16 + q.val
  omega

/-! ## The dense layers in the kernel's operand layout are the specification's -/

/-- The first dense layer with the weight handed over transposed and the bias as a row is the specification's. -/
theorem featK_eq_feat (x : Mat 10000 128) (w1t : Mat 128 32) (b1r : Mat 1 32) (W1 : Mat 32 128) (b1 : Row 32)
    (hW : ∀ (d : Fin 128) (q : Fin 32), w1t (ix2 d q) = W1 (ix2 q d))
    (hb : ∀ q : Fin 32, b1r (ix2 (0 : Fin 1) q) = b1 (ix1 q)) : featK x w1t b1r = feat x W1 b1 := by
  funext i
  -- both sides at an entry, the transpose and the entrywise cleaning read off
  show (∑ d : Fin 128, n2n (x (ix2 (i 0) d)) * w1t (ix2 d (i 1))) + b1r (ix2 (0 : Fin 1) (i 1))
      = (∑ d : Fin 128, n2n (x (ix2 (i 0) d)) * W1 (ix2 (i 1) d)) + b1 (ix1 (i 1))
  rw [hb (i 1)]
  exact congrArg (· + b1 (ix1 (i 1))) (Finset.sum_congr rfl fun d _ => by rw [hW d (i 1)])

/-- The second dense layer likewise. -/
theorem projK_eq_proj (H : Mat 10000 32) (w2t : Mat 32 16) (b2r : Mat 1 16) (W2 : Mat 16 32) (b2 : Row 16)
    (hW : ∀ (l : Fin 32) (q : Fin 16), w2t (ix2 l q) = W2 (ix2 q l))
    (hb : ∀ q : Fin 16, b2r (ix2 (0 : Fin 1) q) = b2 (ix1 q)) : projK H w2t b2r = proj H W2 b2 := by
  funext i
  show (∑ l : Fin 32, H (ix2 (i 0) l) * w2t (ix2 l (i 1))) + b2r (ix2 (0 : Fin 1) (i 1))
      = (∑ l : Fin 32, H (ix2 (i 0) l) * W2 (ix2 (i 1) l)) + b2 (ix1 (i 1))
  rw [hb (i 1)]
  exact congrArg (· + b2 (ix1 (i 1))) (Finset.sum_congr rfl fun l _ => by rw [hW l (i 1)])

/-! ## The result array -/

/-- The kernel program's result array is the network of the launched arguments. -/
theorem final_v0 (c : Dev nD) :
    (dat1 (F := Ideal) (V2 m) c).arrAt 2 cfg1.N
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the second region: the aggregation of what it finds in the adjacency and in its resident operand
  refine (final1 (V2 m) c).trans ?_
  -- those are the launched adjacency and the first region's output; the first region finds the launched features and
  -- adjacency, and the host's four results, which read at an entry are the specification's weights and biases
  rw [V2_main_arg1 m c, V2_main_call0_v4 m c, final0 (V1 m) c, V1_main_arg0 m c, V1_main_arg1 m c,
    featK_eq_feat _ _ _ _ _ (V1_w1t m c) (V1_b1r m c), projK_eq_proj _ _ _ _ _ (V1_w2t m c) (V1_b2r m c)]
  rfl

end Cert.KernelIdeal.Hand

end
-- ==== Proof.Ref.Term.lean ====
/-
  The reference's result as one term of its six arguments: the host operations of @main composed, the three outlined
  `nan_to_num` calls each one definition (`nan2num`: the NaN test a value against itself, then `+∞ ↦ 1`, then `-∞ ↦ 0`,
  each a compare against a splat and a select) and `relu` a maximum against the zero splat.
-/
import proofs.«164597_g45457933861167_cont_8to1c4_294_3_alg».proof.Proof.Gen.ReferenceIdeal

noncomputable section

namespace Cert.ReferenceIdeal.Hand

open Cert.ReferenceIdeal Cert.ReferenceIdeal.Gen Idealize.ShloMosaic

variable {F : FTy → Type} [FloatOps F]

/-- `jnp.nan_to_num(x, nan = 0, posinf = 1, neginf = 0)` as the reference's module spells it on an array of shape `S`. -/
def nan2num {S : Shape} (hb : S_.BroadcastsInDim S (![] : Fin 0 → Fin S.rank)) (x : FVec F S .f32) : FVec F S .f32 :=
  let v2 : FVec F S .f32 := select (cmpf .une x x) (broadcastInDim S ![] hb (id (constant S_ .f32 0x00000000#32))) x
  let v6 : FVec F S .f32 := select (cmpf .oeq v2 (broadcastInDim S ![] hb (constant S_ .f32 0x7F800000#32)))
    (broadcastInDim S ![] hb (id (constant S_ .f32 0x3F800000#32))) v2
  select (cmpf .oeq v6 (broadcastInDim S ![] hb (constant S_ .f32 0xFF800000#32)))
    (broadcastInDim S ![] hb (id (constant S_ .f32 0x00000000#32))) v6

/-- The reference's result: `nan2num (adj · (relu (nan2num (adj · (nan2num x · W1ᵀ + b1))) · W2ᵀ + b2))`. -/
def refTerm (x : FVec F S10000x128 .f32) (adj : FVec F S10000x10000 .f32) (W1 : FVec F S32x128 .f32) (b1 : FVec F S32 .f32)
    (W2 : FVec F S16x32 .f32) (b2 : FVec F S16 .f32) : FVec F S10000x16 .f32 :=
  let x0 : FVec F S10000x128 .f32 := nan2num bcast_S_S10000x128 x
  let v1 : FVec F S128x32 .f32 := transpose S128x32 [1, 0] W1 transposes_S32x128_S128x32_1_0
  let v2 : FVec F S10000x32 .f32 := Host.dotGeneral dot_S10000x128_S128x32_S10000x32_1_0_0_1_n_n none x0 v1
  let v4 : FVec F S10000x32 .f32 := broadcastInDim S10000x32 ![0, 1] bcast_S1x32_S10000x32_0_1 (broadcastInDim S1x32 ![1] bcast_S32_S1x32_1 b1)
  let v5 : FVec F S10000x32 .f32 := addf v2 v4
  let v6 : FVec F S10000x32 .f32 := Host.dotGeneral dot_S10000x10000_S10000x32_S10000x32_1_0_0_1_n_n none adj v5
  let v7 : FVec F S10000x32 .f32 := nan2num bcast_S_S10000x32 v6
  let v8 : FVec F S10000x32 .f32 := maximumf v7 (broadcastInDim S10000x32 ![] bcast_S_S10000x32 (constant S_ .f32 0x00000000#32))
  let v9 : FVec F S32x16 .f32 := transpose S32x16 [1, 0] W2 transposes_S16x32_S32x16_1_0
  let v10 : FVec F S10000x16 .f32 := Host.dotGeneral dot_S10000x32_S32x16_S10000x16_1_0_0_1_n_n none v8 v9
  let v12 : FVec F S10000x16 .f32 := broadcastInDim S10000x16 ![0, 1] bcast_S1x16_S10000x16_0_1 (broadcastInDim S1x16 ![1] bcast_S16_S1x16_1 b2)
  let v13 : FVec F S10000x16 .f32 := addf v10 v12
  let v14 : FVec F S10000x16 .f32 := Host.dotGeneral dot_S10000x10000_S10000x16_S10000x16_1_0_0_1_n_n none adj v13
  nan2num bcast_S_S10000x16 v14

end Cert.ReferenceIdeal.Hand

end
-- ==== Proof.Ref.Run.lean ====
/-
  The reference's run: @main is a straight line of host operations once the outlined functions (`nan_to_num`, its
  `_where`s, `relu`) are unfolded at their calls, so every weakly fair execution terminates with the result buffer at the
  operations' composed term of the arguments (`refTerm`) and the arguments unchanged.
-/
import proofs.«164597_g45457933861167_cont_8to1c4_294_3_alg».proof.Proof.Ref.Term
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's seventy-two operations in order, the calls unfolded. Each `nan_to_num(x, 0, 0, 1)` is sixteen over its call's
    buffers: the NaN test (`x ≠ x`), the replacement converted to its own type, `_where`'s two (the broadcast, the select);
    the `+∞` constant, its broadcast, the comparison, the replacement converted, `_where`'s two; the same six for `-∞`.
    `relu` is three (the zero, its broadcast, the maximum). Around them @main's own: three scalar constants before each
    `nan_to_num`, and twice a transpose, a contraction, the bias broadcast in two steps, the sum, the contraction with the
    adjacency. -/
abbrev ops : List (HloOp τ sig (Elt F)) :=
  [ nullary main_cst (constant S_ .f32 0x00000000#32),
    nullary main_cst_0 (constant S_ .f32 0x00000000#32),
    nullary main_cst_1 (constant S_ .f32 0x3F800000#32),
    TRef.binary (.of main_arg0) (.of main_arg0) main_call0.v0 (cmpf .une),
    TRef.unary (.of main_cst) main_call0.v1 id,
    TRef.unary main_call0.v1 main_call0.call0.v0 (broadcastInDim S10000x128 ![] bcast_S_S10000x128),
    TRef.ternary main_call0.v0 main_call0.call0.v0 (.of main_arg0) main_call0.call0.v1 select,
    TRef.nullary main_call0.cst (constant S_ .f32 0x7F800000#32),
    TRef.unary main_call0.cst main_call0.v3 (broadcastInDim S10000x128 ![] bcast_S_S10000x128),
    TRef.binary main_call0.call0.v1 main_call0.v3 main_call0.v4 (cmpf .oeq),
    TRef.unary (.of main_cst_1) main_call0.v5 id,
    TRef.unary main_call0.v5 main_call0.call1.v0 (broadcastInDim S10000x128 ![] bcast_S_S10000x128),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S10000x128 ![] bcast_S_S10000x128),
    TRef.binary main_call0.call1.v1 main_call0.v7 main_call0.v8 (cmpf .oeq),
    TRef.unary (.of main_cst_0) main_call0.v9 id,
    TRef.unary main_call0.v9 main_call0.call2.v0 (broadcastInDim S10000x128 ![] bcast_S_S10000x128),
    TRef.ternary main_call0.v8 main_call0.call2.v0 main_call0.call1.v1 main_call0.call2.v1 select,
    unary main_arg2 main_v1 ((transpose S128x32 [1, 0] · transposes_S32x128_S128x32_1_0) : (⟨S32x128, .f32⟩ : BufTy).Contents (Elt F) → (⟨S128x32, .f32⟩ : BufTy).Contents (Elt F)),
    binary main_v0 main_v1 main_v2 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg3 main_v3 (broadcastInDim S1x32 ![1] bcast_S32_S1x32_1 : (⟨S32, .f32⟩ : BufTy).Contents (Elt F) → (⟨S1x32, .f32⟩ : BufTy).Contents (Elt F)),
    unary main_v3 main_v4 (broadcastInDim S10000x32 ![0, 1] bcast_S1x32_S10000x32_0_1 : (⟨S1x32, .f32⟩ : BufTy).Contents (Elt F) → (⟨S10000x32, .f32⟩ : BufTy).Contents (Elt F)),
    binary main_v2 main_v4 main_v5 (addf : (⟨S10000x32, .f32⟩ : BufTy).Contents (Elt F) → (⟨S10000x32, .f32⟩ : BufTy).Contents (Elt F) → (⟨S10000x32, .f32⟩ : BufTy).Contents (Elt F)),
    binary main_arg1 main_v5 main_v6 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    nullary main_cst_2 (constant S_ .f32 0x00000000#32),
    nullary main_cst_3 (constant S_ .f32 0x00000000#32),
    nullary main_cst_4 (constant S_ .f32 0x3F800000#32),
    TRef.binary (.of main_v6) (.of main_v6) main_call1.v0 (cmpf .une),
    TRef.unary (.of main_cst_2) main_call1.v1 id,
    TRef.unary main_call1.v1 main_call1.call0.v0 (broadcastInDim S10000x32 ![] bcast_S_S10000x32),
    TRef.ternary main_call1.v0 main_call1.call0.v0 (.of main_v6) main_call1.call0.v1 select,
    TRef.nullary main_call1.cst (constant S_ .f32 0x7F800000#32),
    TRef.unary main_call1.cst main_call1.v3 (broadcastInDim S10000x32 ![] bcast_S_S10000x32),
    TRef.binary main_call1.call0.v1 main_call1.v3 main_call1.v4 (cmpf .oeq),
    TRef.unary (.of main_cst_4) main_call1.v5 id,
    TRef.unary main_call1.v5 main_call1.call1.v0 (broadcastInDim S10000x32 ![] bcast_S_S10000x32),
    TRef.ternary main_call1.v4 main_call1.call1.v0 main_call1.call0.v1 main_call1.call1.v1 select,
    TRef.nullary main_call1.cst_0 (constant S_ .f32 0xFF800000#32),
    TRef.unary main_call1.cst_0 main_call1.v7 (broadcastInDim S10000x32 ![] bcast_S_S10000x32),
    TRef.binary main_call1.call1.v1 main_call1.v7 main_call1.v8 (cmpf .oeq),
    TRef.unary (.of main_cst_3) main_call1.v9 id,
    TRef.unary main_call1.v9 main_call1.call2.v0 (broadcastInDim S10000x32 ![] bcast_S_S10000x32),
    TRef.ternary main_call1.v8 main_call1.call2.v0 main_call1.call1.v1 main_call1.call2.v1 select,
    TRef.nullary main_call2.cst (constant S_ .f32 0x00000000#32),
    TRef.unary main_call2.cst main_call2.v0 (broadcastInDim S10000x32 ![] bcast_S_S10000x32),
    TRef.binary (.of main_v7) main_call2.v0 main_call2.v1 maximumf,
    unary main_arg4 main_v9 ((transpose S32x16 [1, 0] · transposes_S16x32_S32x16_1_0) : (⟨S16x32, .f32⟩ : BufTy).Contents (Elt F) → (⟨S32x16, .f32⟩ : BufTy).Contents (Elt F)),
    binary main_v8 main_v9 main_v10 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    unary main_arg5 main_v11 (broadcastInDim S1x16 ![1] bcast_S16_S1x16_1 : (⟨S16, .f32⟩ : BufTy).Contents (Elt F) → (⟨S1x16, .f32⟩ : BufTy).Contents (Elt F)),
    unary main_v11 main_v12 (broadcastInDim S10000x16 ![0, 1] bcast_S1x16_S10000x16_0_1 : (⟨S1x16, .f32⟩ : BufTy).Contents (Elt F) → (⟨S10000x16, .f32⟩ : BufTy).Contents (Elt F)),
    binary main_v10 main_v12 main_v13 (addf : (⟨S10000x16, .f32⟩ : BufTy).Contents (Elt F) → (⟨S10000x16, .f32⟩ : BufTy).Contents (Elt F) → (⟨S10000x16, .f32⟩ : BufTy).Contents (Elt F)),
    binary main_arg1 main_v13 main_v14 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)),
    nullary main_cst_5 (constant S_ .f32 0x00000000#32),
    nullary main_cst_6 (constant S_ .f32 0x00000000#32),
    nullary main_cst_7 (constant S_ .f32 0x3F800000#32),
    TRef.binary (.of main_v14) (.of main_v14) main_call3.v0 (cmpf .une),
    TRef.unary (.of main_cst_5) main_call3.v1 id,
    TRef.unary main_call3.v1 main_call3.call0.v0 (broadcastInDim S10000x16 ![] bcast_S_S10000x16),
    TRef.ternary main_call3.v0 main_call3.call0.v0 (.of main_v14) main_call3.call0.v1 select,
    TRef.nullary main_call3.cst (constant S_ .f32 0x7F800000#32),
    TRef.unary main_call3.cst main_call3.v3 (broadcastInDim S10000x16 ![] bcast_S_S10000x16),
    TRef.binary main_call3.call0.v1 main_call3.v3 main_call3.v4 (cmpf .oeq),
    TRef.unary (.of main_cst_7) main_call3.v5 id,
    TRef.unary main_call3.v5 main_call3.call1.v0 (broadcastInDim S10000x16 ![] bcast_S_S10000x16),
    TRef.ternary main_call3.v4 main_call3.call1.v0 main_call3.call0.v1 main_call3.call1.v1 select,
    TRef.nullary main_call3.cst_0 (constant S_ .f32 0xFF800000#32),
    TRef.unary main_call3.cst_0 main_call3.v7 (broadcastInDim S10000x16 ![] bcast_S_S10000x16),
    TRef.binary main_call3.call1.v1 main_call3.v7 main_call3.v8 (cmpf .oeq),
    TRef.unary (.of main_cst_6) main_call3.v9 id,
    TRef.unary main_call3.v9 main_call3.call2.v0 (broadcastInDim S10000x16 ![] bcast_S_S10000x16),
    TRef.ternary main_call3.v8 main_call3.call2.v0 main_call3.call1.v1 main_call3.call2.v1 select ]

-- seventy-two binds re-associated: `simp`'s rewrite under the chain recurses once per statement
set_option maxRecDepth 2048 in
set_option maxHeartbeats 1000000 in
/-- @main is that straight line: the functions' definitions unfolded at their calls and the records at their fields, both
    sides are one chain of `hlo` steps once sequencing is reassociated (`bind_assoc`, `pure_bind`). -/
theorem main_eq (c : Dev nD) : main (F := F) c = seq ops := by
  simp only [main, fn_nan_to_num.body, fn_nan_to_num_1.body, fn_nan_to_num_3.body, fn_where.body, fn_where_0.body,
    fn_where_2.body, fn_where_4.body, fn_relu.body, seq, bind_assoc, pure_bind]

/-! ## The fold, stage by stage

The line cut in six: a `nan_to_num` with the three constants before it (`segA`, `segC`, `segF`), the affine layer
followed by the adjacency's contraction (`segB`, `segE`), `relu` (`segD`). Each stage's fold is read at the one buffer the
next stage consumes, from ANY contents `W`, and at the arguments later stages still read (which it leaves alone); the
whole fold is then the stages' terms substituted into one another. Read in one piece the term is a tree in which every
`nan_to_num` triples its operand three times over. -/

/-- Operations 1–19 of @main. -/
abbrev segA : List (HloOp τ sig (Elt F)) :=
  [ nullary main_cst (constant S_ .f32 0x00000000#32),
    nullary main_cst_0 (constant S_ .f32 0x00000000#32),
    nullary main_cst_1 (constant S_ .f32 0x3F800000#32),
    TRef.binary (.of main_arg0) (.of main_arg0) main_call0.v0 (cmpf .une),
    TRef.unary (.of main_cst) main_call0.v1 id,
    TRef.unary main_call0.v1 main_call0.call0.v0 (broadcastInDim S10000x128 ![] bcast_S_S10000x128),
    TRef.ternary main_call0.v0 main_call0.call0.v0 (.of main_arg0) main_call0.call0.v1 select,
    TRef.nullary main_call0.cst (constant S_ .f32 0x7F800000#32),
    TRef.unary main_call0.cst main_call0.v3 (broadcastInDim S10000x128 ![] bcast_S_S10000x128),
    TRef.binary main_call0.call0.v1 main_call0.v3 main_call0.v4 (cmpf .oeq),
    TRef.unary (.of main_cst_1) main_call0.v5 id,
    TRef.unary main_call0.v5 main_call0.call1.v0 (broadcastInDim S10000x128 ![] bcast_S_S10000x128),
    TRef.ternary main_call0.v4 main_call0.call1.v0 main_call0.call0.v1 main_call0.call1.v1 select,
    TRef.nullary main_call0.cst_0 (constant S_ .f32 0xFF800000#32),
    TRef.unary main_call0.cst_0 main_call0.v7 (broadcastInDim S10000x128 ![] bcast_S_S10000x128),
    TRef.binary main_call0.call1.v1 main_call0.v7 main_call0.v8 (cmpf .oeq),
    TRef.unary (.of main_cst_0) main_call0.v9 id,
    TRef.unary main_call0.v9 main_call0.call2.v0 (broadcastInDim S10000x128 ![] bcast_S_S10000x128),
    TRef.ternary main_call0.v8 main_call0.call2.v0 main_call0.call1.v1 main_call0.call2.v1 select ]

/-- Operations 20–25 of @main. -/
abbrev segB : List (HloOp τ sig (Elt F)) :=
  [ unary main_arg2 main_v1 ((transpose S128x32 [1, 0] · transposes_S32x128_S128x32_1_0) : (⟨S32x128, .f32⟩ : BufTy).Contents (Elt F) → (⟨S128x32, .f32⟩ : BufTy).Contents (Elt F)),
    binary main_v0 main_v1 main_v2 ((fun l r => Host.dotGeneral dot_S10000x128_S128x32_S10000x32_1_0_0_1_n_n none l r) : (⟨S10000x128, .f32⟩ : BufTy).Contents (Elt F) → (⟨S128x32, .f32⟩ : BufTy).Contents (Elt F) → (⟨S10000x32, .f32⟩ : BufTy).Contents (Elt F)),
    unary main_arg3 main_v3 (broadcastInDim S1x32 ![1] bcast_S32_S1x32_1 : (⟨S32, .f32⟩ : BufTy).Contents (Elt F) → (⟨S1x32, .f32⟩ : BufTy).Contents (Elt F)),
    unary main_v3 main_v4 (broadcastInDim S10000x32 ![0, 1] bcast_S1x32_S10000x32_0_1 : (⟨S1x32, .f32⟩ : BufTy).Contents (Elt F) → (⟨S10000x32, .f32⟩ : BufTy).Contents (Elt F)),
    binary main_v2 main_v4 main_v5 (addf : (⟨S10000x32, .f32⟩ : BufTy).Contents (Elt F) → (⟨S10000x32, .f32⟩ : BufTy).Contents (Elt F) → (⟨S10000x32, .f32⟩ : BufTy).Contents (Elt F)),
    binary main_arg1 main_v5 main_v6 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)) ]

/-- Operations 26–44 of @main. -/
abbrev segC : List (HloOp τ sig (Elt F)) :=
  [ nullary main_cst_2 (constant S_ .f32 0x00000000#32),
    nullary main_cst_3 (constant S_ .f32 0x00000000#32),
    nullary main_cst_4 (constant S_ .f32 0x3F800000#32),
    TRef.binary (.of main_v6) (.of main_v6) main_call1.v0 (cmpf .une),
    TRef.unary (.of main_cst_2) main_call1.v1 id,
    TRef.unary main_call1.v1 main_call1.call0.v0 (broadcastInDim S10000x32 ![] bcast_S_S10000x32),
    TRef.ternary main_call1.v0 main_call1.call0.v0 (.of main_v6) main_call1.call0.v1 select,
    TRef.nullary main_call1.cst (constant S_ .f32 0x7F800000#32),
    TRef.unary main_call1.cst main_call1.v3 (broadcastInDim S10000x32 ![] bcast_S_S10000x32),
    TRef.binary main_call1.call0.v1 main_call1.v3 main_call1.v4 (cmpf .oeq),
    TRef.unary (.of main_cst_4) main_call1.v5 id,
    TRef.unary main_call1.v5 main_call1.call1.v0 (broadcastInDim S10000x32 ![] bcast_S_S10000x32),
    TRef.ternary main_call1.v4 main_call1.call1.v0 main_call1.call0.v1 main_call1.call1.v1 select,
    TRef.nullary main_call1.cst_0 (constant S_ .f32 0xFF800000#32),
    TRef.unary main_call1.cst_0 main_call1.v7 (broadcastInDim S10000x32 ![] bcast_S_S10000x32),
    TRef.binary main_call1.call1.v1 main_call1.v7 main_call1.v8 (cmpf .oeq),
    TRef.unary (.of main_cst_3) main_call1.v9 id,
    TRef.unary main_call1.v9 main_call1.call2.v0 (broadcastInDim S10000x32 ![] bcast_S_S10000x32),
    TRef.ternary main_call1.v8 main_call1.call2.v0 main_call1.call1.v1 main_call1.call2.v1 select ]

/-- Operations 45–47 of @main. -/
abbrev segD : List (HloOp τ sig (Elt F)) :=
  [ TRef.nullary main_call2.cst (constant S_ .f32 0x00000000#32),
    TRef.unary main_call2.cst main_call2.v0 (broadcastInDim S10000x32 ![] bcast_S_S10000x32),
    TRef.binary (.of main_v7) main_call2.v0 main_call2.v1 maximumf ]

/-- Operations 48–53 of @main. -/
abbrev segE : List (HloOp τ sig (Elt F)) :=
  [ unary main_arg4 main_v9 ((transpose S32x16 [1, 0] · transposes_S16x32_S32x16_1_0) : (⟨S16x32, .f32⟩ : BufTy).Contents (Elt F) → (⟨S32x16, .f32⟩ : BufTy).Contents (Elt F)),
    binary main_v8 main_v9 main_v10 ((fun l r => Host.dotGeneral dot_S10000x32_S32x16_S10000x16_1_0_0_1_n_n none l r) : (⟨S10000x32, .f32⟩ : BufTy).Contents (Elt F) → (⟨S32x16, .f32⟩ : BufTy).Contents (Elt F) → (⟨S10000x16, .f32⟩ : BufTy).Contents (Elt F)),
    unary main_arg5 main_v11 (broadcastInDim S1x16 ![1] bcast_S16_S1x16_1 : (⟨S16, .f32⟩ : BufTy).Contents (Elt F) → (⟨S1x16, .f32⟩ : BufTy).Contents (Elt F)),
    unary main_v11 main_v12 (broadcastInDim S10000x16 ![0, 1] bcast_S1x16_S10000x16_0_1 : (⟨S1x16, .f32⟩ : BufTy).Contents (Elt F) → (⟨S10000x16, .f32⟩ : BufTy).Contents (Elt F)),
    binary main_v10 main_v12 main_v13 (addf : (⟨S10000x16, .f32⟩ : BufTy).Contents (Elt F) → (⟨S10000x16, .f32⟩ : BufTy).Contents (Elt F) → (⟨S10000x16, .f32⟩ : BufTy).Contents (Elt F)),
    binary main_arg1 main_v13 main_v14 ((fun l r => Host.dotGeneral dot_S10000x10000_S10000x16_S10000x16_1_0_0_1_n_n none l r) : (⟨S10000x10000, .f32⟩ : BufTy).Contents (Elt F) → (⟨S10000x16, .f32⟩ : BufTy).Contents (Elt F) → (⟨S10000x16, .f32⟩ : BufTy).Contents (Elt F)) ]

/-- Operations 54–72 of @main. -/
abbrev segF : List (HloOp τ sig (Elt F)) :=
  [ nullary main_cst_5 (constant S_ .f32 0x00000000#32),
    nullary main_cst_6 (constant S_ .f32 0x00000000#32),
    nullary main_cst_7 (constant S_ .f32 0x3F800000#32),
    TRef.binary (.of main_v14) (.of main_v14) main_call3.v0 (cmpf .une),
    TRef.unary (.of main_cst_5) main_call3.v1 id,
    TRef.unary main_call3.v1 main_call3.call0.v0 (broadcastInDim S10000x16 ![] bcast_S_S10000x16),
    TRef.ternary main_call3.v0 main_call3.call0.v0 (.of main_v14) main_call3.call0.v1 select,
    TRef.nullary main_call3.cst (constant S_ .f32 0x7F800000#32),
    TRef.unary main_call3.cst main_call3.v3 (broadcastInDim S10000x16 ![] bcast_S_S10000x16),
    TRef.binary main_call3.call0.v1 main_call3.v3 main_call3.v4 (cmpf .oeq),
    TRef.unary (.of main_cst_7) main_call3.v5 id,
    TRef.unary main_call3.v5 main_call3.call1.v0 (broadcastInDim S10000x16 ![] bcast_S_S10000x16),
    TRef.ternary main_call3.v4 main_call3.call1.v0 main_call3.call0.v1 main_call3.call1.v1 select,
    TRef.nullary main_call3.cst_0 (constant S_ .f32 0xFF800000#32),
    TRef.unary main_call3.cst_0 main_call3.v7 (broadcastInDim S10000x16 ![] bcast_S_S10000x16),
    TRef.binary main_call3.call1.v1 main_call3.v7 main_call3.v8 (cmpf .oeq),
    TRef.unary (.of main_cst_6) main_call3.v9 id,
    TRef.unary main_call3.v9 main_call3.call2.v0 (broadcastInDim S10000x16 ![] bcast_S_S10000x16),
    TRef.ternary main_call3.v8 main_call3.call2.v0 main_call3.call1.v1 main_call3.call2.v1 select ]

/-- The fold over a concatenation is the fold over the second part from the first part's result. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The line is its six stages in a row. -/
theorem ops_eq : (ops : List (HloOp τ sig (Elt F))) = segA ++ (segB ++ (segC ++ (segD ++ (segE ++ segF)))) := rfl

set_option maxRecDepth 8192 in
/-- The first `nan_to_num`, of the features: its three constants, then its sixteen operations, read at its result. From any contents `W`: each operation's result rewritten at the buffer it writes, the other
    buffers passed through (their references differ, by computation); what is left are the typed references' casts, the
    identity at these literal references. -/
theorem segA_main_v0 (W : Valuation τ sig (Elt F)) :
    after segA W (main_v0 : DevRef τ sig)
      = nan2num bcast_S_S10000x128 (W (main_arg0 : DevRef τ sig)) := by
  after_results_simp <;> rfl

/-- That stage writes no argument: `main_arg1` keeps its contents. -/
theorem segA_main_arg1 (W : Valuation τ sig (Elt F)) : after segA W (main_arg1 : DevRef τ sig) = W (main_arg1 : DevRef τ sig) := by
  after_results_simp <;> rfl

/-- That stage writes no argument: `main_arg2` keeps its contents. -/
theorem segA_main_arg2 (W : Valuation τ sig (Elt F)) : after segA W (main_arg2 : DevRef τ sig) = W (main_arg2 : DevRef τ sig) := by
  after_results_simp <;> rfl

/-- That stage writes no argument: `main_arg3` keeps its contents. -/
theorem segA_main_arg3 (W : Valuation τ sig (Elt F)) : after segA W (main_arg3 : DevRef τ sig) = W (main_arg3 : DevRef τ sig) := by
  after_results_simp <;> rfl

/-- That stage writes no argument: `main_arg4` keeps its contents. -/
theorem segA_main_arg4 (W : Valuation τ sig (Elt F)) : after segA W (main_arg4 : DevRef τ sig) = W (main_arg4 : DevRef τ sig) := by
  after_results_simp <;> rfl

/-- That stage writes no argument: `main_arg5` keeps its contents. -/
theorem segA_main_arg5 (W : Valuation τ sig (Elt F)) : after segA W (main_arg5 : DevRef τ sig) = W (main_arg5 : DevRef τ sig) := by
  after_results_simp <;> rfl

set_option maxRecDepth 8192 in
/-- The first layer: the weights transposed, the contraction, the bias broadcast along the rows, the sum, then the adjacency's contraction with it. From any contents `W`: each operation's result rewritten at the buffer it writes, the other
    buffers passed through (their references differ, by computation); what is left are the typed references' casts, the
    identity at these literal references. -/
theorem segB_main_v6 (W : Valuation τ sig (Elt F)) :
    after segB W (main_v6 : DevRef τ sig)
      = Host.dotGeneral dot_S10000x10000_S10000x32_S10000x32_1_0_0_1_n_n none (W (main_arg1 : DevRef τ sig))
          (addf (Host.dotGeneral dot_S10000x128_S128x32_S10000x32_1_0_0_1_n_n none (W (main_v0 : DevRef τ sig))
              (transpose S128x32 [1, 0] (W (main_arg2 : DevRef τ sig)) transposes_S32x128_S128x32_1_0))
            (broadcastInDim S10000x32 ![0, 1] bcast_S1x32_S10000x32_0_1 (broadcastInDim S1x32 ![1] bcast_S32_S1x32_1 (W (main_arg3 : DevRef τ sig))))) := by
  after_results_simp <;> rfl

/-- That stage writes no argument: `main_arg1` keeps its contents. -/
theorem segB_main_arg1 (W : Valuation τ sig (Elt F)) : after segB W (main_arg1 : DevRef τ sig) = W (main_arg1 : DevRef τ sig) := by
  after_results_simp <;> rfl

/-- That stage writes no argument: `main_arg4` keeps its contents. -/
theorem segB_main_arg4 (W : Valuation τ sig (Elt F)) : after segB W (main_arg4 : DevRef τ sig) = W (main_arg4 : DevRef τ sig) := by
  after_results_simp <;> rfl

/-- That stage writes no argument: `main_arg5` keeps its contents. -/
theorem segB_main_arg5 (W : Valuation τ sig (Elt F)) : after segB W (main_arg5 : DevRef τ sig) = W (main_arg5 : DevRef τ sig) := by
  after_results_simp <;> rfl

set_option maxRecDepth 8192 in
/-- The second `nan_to_num`, of the first layer's output. From any contents `W`: each operation's result rewritten at the buffer it writes, the other
    buffers passed through (their references differ, by computation); what is left are the typed references' casts, the
    identity at these literal references. -/
theorem segC_main_v7 (W : Valuation τ sig (Elt F)) :
    after segC W (main_v7 : DevRef τ sig)
      = nan2num bcast_S_S10000x32 (W (main_v6 : DevRef τ sig)) := by
  after_results_simp <;> rfl

/-- That stage writes no argument: `main_arg1` keeps its contents. -/
theorem segC_main_arg1 (W : Valuation τ sig (Elt F)) : after segC W (main_arg1 : DevRef τ sig) = W (main_arg1 : DevRef τ sig) := by
  after_results_simp <;> rfl

/-- That stage writes no argument: `main_arg4` keeps its contents. -/
theorem segC_main_arg4 (W : Valuation τ sig (Elt F)) : after segC W (main_arg4 : DevRef τ sig) = W (main_arg4 : DevRef τ sig) := by
  after_results_simp <;> rfl

/-- That stage writes no argument: `main_arg5` keeps its contents. -/
theorem segC_main_arg5 (W : Valuation τ sig (Elt F)) : after segC W (main_arg5 : DevRef τ sig) = W (main_arg5 : DevRef τ sig) := by
  after_results_simp <;> rfl

set_option maxRecDepth 8192 in
/-- `relu`: the maximum against the zero splat. From any contents `W`: each operation's result rewritten at the buffer it writes, the other
    buffers passed through (their references differ, by computation); what is left are the typed references' casts, the
    identity at these literal references. -/
theorem segD_main_v8 (W : Valuation τ sig (Elt F)) :
    after segD W (main_v8 : DevRef τ sig)
      = maximumf (W (main_v7 : DevRef τ sig)) (broadcastInDim S10000x32 ![] bcast_S_S10000x32 (constant S_ .f32 0x00000000#32)) := by
  after_results_simp <;> rfl

/-- That stage writes no argument: `main_arg1` keeps its contents. -/
theorem segD_main_arg1 (W : Valuation τ sig (Elt F)) : after segD W (main_arg1 : DevRef τ sig) = W (main_arg1 : DevRef τ sig) := by
  after_results_simp <;> rfl

/-- That stage writes no argument: `main_arg4` keeps its contents. -/
theorem segD_main_arg4 (W : Valuation τ sig (Elt F)) : after segD W (main_arg4 : DevRef τ sig) = W (main_arg4 : DevRef τ sig) := by
  after_results_simp <;> rfl

/-- That stage writes no argument: `main_arg5` keeps its contents. -/
theorem segD_main_arg5 (W : Valuation τ sig (Elt F)) : after segD W (main_arg5 : DevRef τ sig) = W (main_arg5 : DevRef τ sig) := by
  after_results_simp <;> rfl

set_option maxRecDepth 8192 in
/-- The second layer, as the first: transpose, contraction, bias, sum, the adjacency's contraction. From any contents `W`: each operation's result rewritten at the buffer it writes, the other
    buffers passed through (their references differ, by computation); what is left are the typed references' casts, the
    identity at these literal references. -/
theorem segE_main_v14 (W : Valuation τ sig (Elt F)) :
    after segE W (main_v14 : DevRef τ sig)
      = Host.dotGeneral dot_S10000x10000_S10000x16_S10000x16_1_0_0_1_n_n none (W (main_arg1 : DevRef τ sig))
          (addf (Host.dotGeneral dot_S10000x32_S32x16_S10000x16_1_0_0_1_n_n none (W (main_v8 : DevRef τ sig))
              (transpose S32x16 [1, 0] (W (main_arg4 : DevRef τ sig)) transposes_S16x32_S32x16_1_0))
            (broadcastInDim S10000x16 ![0, 1] bcast_S1x16_S10000x16_0_1 (broadcastInDim S1x16 ![1] bcast_S16_S1x16_1 (W (main_arg5 : DevRef τ sig))))) := by
  after_results_simp <;> rfl

set_option maxRecDepth 8192 in
/-- The third `nan_to_num`, of the second layer's output: the result. From any contents `W`: each operation's result rewritten at the buffer it writes, the other
    buffers passed through (their references differ, by computation); what is left are the typed references' casts, the
    identity at these literal references. -/
theorem segF_main_v15 (W : Valuation τ sig (Elt F)) :
    after segF W (main_v15 : DevRef τ sig)
      = nan2num bcast_S_S10000x16 (W (main_v14 : DevRef τ sig)) := by
  after_results_simp <;> rfl

/-- The fold at the result buffer is `refTerm` of the arguments: the line is the six stages in a row (`ops_eq`), so its fold
    is theirs composed (`after_append`); from the last stage back, each stage's read is its term over the contents the
    stages before it leave, and an argument read through a stage is the argument before it; what remains is `refTerm`
    unfolded. -/
theorem out_eq (V : Valuation τ sig (Elt F)) :
    after ops V (main_v15 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_eq, after_append, after_append, after_append, after_append, after_append]
  rw [segF_main_v15, segE_main_v14, segD_main_v8, segD_main_arg1, segD_main_arg4, segD_main_arg5, segC_main_v7,
      segC_main_arg1, segC_main_arg4, segC_main_arg5, segB_main_v6, segB_main_arg1, segB_main_arg4, segB_main_arg5,
      segA_main_v0, segA_main_arg1, segA_main_arg2, segA_main_arg3, segA_main_arg4, segA_main_arg5]
  rfl

/-- No operation of the line writes an argument: each keeps its launch contents (seventy-two references compared, all different). -/
theorem arg0_eq (V : Valuation τ sig (Elt F)) :
    after ops V (main_arg0 : DevRef τ sig) = V (main_arg0 : DevRef τ sig) := by
  after_results_simp <;> rfl

theorem arg1_eq (V : Valuation τ sig (Elt F)) :
    after ops V (main_arg1 : DevRef τ sig) = V (main_arg1 : DevRef τ sig) := by
  after_results_simp <;> rfl

theorem arg2_eq (V : Valuation τ sig (Elt F)) :
    after ops V (main_arg2 : DevRef τ sig) = V (main_arg2 : DevRef τ sig) := by
  after_results_simp <;> rfl

theorem arg3_eq (V : Valuation τ sig (Elt F)) :
    after ops V (main_arg3 : DevRef τ sig) = V (main_arg3 : DevRef τ sig) := by
  after_results_simp <;> rfl

theorem arg4_eq (V : Valuation τ sig (Elt F)) :
    after ops V (main_arg4 : DevRef τ sig) = V (main_arg4 : DevRef τ sig) := by
  after_results_simp <;> rfl

theorem arg5_eq (V : Valuation τ sig (Elt F)) :
    after ops V (main_arg5 : DevRef τ sig) = V (main_arg5 : DevRef τ sig) := by
  after_results_simp <;> rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., nullary_bufs_sub .., nullary_bufs_sub .., binary_bufs_sub .., unary_bufs_sub .., unary_bufs_sub ..,
    ternary_bufs_sub .., nullary_bufs_sub .., unary_bufs_sub .., binary_bufs_sub .., unary_bufs_sub .., unary_bufs_sub ..,
    ternary_bufs_sub .., nullary_bufs_sub .., unary_bufs_sub .., binary_bufs_sub .., unary_bufs_sub .., unary_bufs_sub ..,
    ternary_bufs_sub .., unary_bufs_sub .., binary_bufs_sub .., unary_bufs_sub .., unary_bufs_sub .., binary_bufs_sub ..,
    binary_bufs_sub .., nullary_bufs_sub .., nullary_bufs_sub .., nullary_bufs_sub .., binary_bufs_sub .., unary_bufs_sub ..,
    unary_bufs_sub .., ternary_bufs_sub .., nullary_bufs_sub .., unary_bufs_sub .., binary_bufs_sub .., unary_bufs_sub ..,
    unary_bufs_sub .., ternary_bufs_sub .., nullary_bufs_sub .., unary_bufs_sub .., binary_bufs_sub .., unary_bufs_sub ..,
    unary_bufs_sub .., ternary_bufs_sub .., nullary_bufs_sub .., unary_bufs_sub .., binary_bufs_sub .., unary_bufs_sub ..,
    binary_bufs_sub .., unary_bufs_sub .., unary_bufs_sub .., binary_bufs_sub .., binary_bufs_sub .., nullary_bufs_sub ..,
    nullary_bufs_sub .., nullary_bufs_sub .., binary_bufs_sub .., unary_bufs_sub .., unary_bufs_sub .., ternary_bufs_sub ..,
    nullary_bufs_sub .., unary_bufs_sub .., binary_bufs_sub .., unary_bufs_sub .., unary_bufs_sub .., ternary_bufs_sub ..,
    nullary_bufs_sub .., unary_bufs_sub .., binary_bufs_sub .., unary_bufs_sub .., unary_bufs_sub .., ternary_bufs_sub ..⟩

/-- On every device, for any float values, from any memory with zero counters: every weakly fair execution of @main
    terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ)

end Cert.ReferenceIdeal.Hand

end
-- ==== Proof.Ref.Value.lean ====
/-
  The reference's term is the network `G`, entry by entry, on the extended reals: each `dot_general` is a plain sum over the
  contracted axis, each bias a row vector broadcast over the rows, each transpose an exchange of the two coordinates,
  `relu` the maximum with zero, and `nan2num` at an entry is `n2n` (the NaN test compares a value with itself, which on
  the extended reals never differs).
-/
import proofs.«164597_g45457933861167_cont_8to1c4_294_3_alg».proof.Proof.Ref.Term
import proofs.«164597_g45457933861167_cont_8to1c4_294_3_alg».proof.Proof.Spec
import proofs.«164597_g45457933861167_cont_8to1c4_294_3_alg».proof.Proof.LibDense
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.ReferenceIdeal.Hand

open Cert.ReferenceIdeal Cert.ReferenceIdeal.Gen Idealize.ShloMosaic Idealize.ShloMosaic.ValueIdx Cert.LibDense Cert.Gcn

/-! ## The cleaning map, entry by entry -/

/-- A scalar literal splat over a shape reads, at every index, the literal's value. -/
private theorem splat_apply {S : Shape} (hb : S_.BroadcastsInDim S (![] : Fin 0 → Fin S.rank)) (w : BitVec FTy.f32.bits) (i : S.Idx) :
    broadcastInDim S ![] hb (constant (F := Ideal) S_ .f32 w) i = Ideal.ofBits .f32 w := by
  rw [StableHlo.Predicate.bcast_scalar hb (by decide) _ i, constant_apply]

/-- On the extended reals the float comparison is the comparison of the values. -/
private theorem cmpf_ideal {φ : FTy} (p : CmpFPredicate) (a b : Ideal φ) : FloatOps.cmpf (F := Ideal) p a b = Ideal.cmp p a b := rfl

/-- An extended real never differs from itself: the NaN test is never met. -/
private theorem cmp_une_self (a : EReal) : Ideal.cmp .une a a = 0#1 := by
  simp [Ideal.cmp]

/-- A select on the false condition keeps its second branch. -/
private theorem select_zero {α : Type} (a b : α) : Scalar.select (0#1) a b = b := if_neg (by decide)

/-- `nan_to_num` as the reference spells it is `n2n` at every entry: the NaN arm never fires, and the two remaining
    selects are `n2n`'s, on the same four literals. -/
theorem nan2num_eq {S : Shape} (hb : S_.BroadcastsInDim S (![] : Fin 0 → Fin S.rank)) (x : FVec Ideal S .f32) :
    nan2num (F := Ideal) hb x = n2nM x := by
  funext i
  unfold nan2num n2nM n2n
  simp only [select_apply, cmpf_apply, id_eq, splat_apply, cmpf_ideal, cmp_une_self, select_zero]

/-! ## The transpose and the plain product -/

/-- The transpose of a matrix by the permutation `[1, 0]` exchanges the two coordinates. -/
theorem transpose_eq_tr {a b : ℕ} (w : FVec Ideal (⟨2, ![a, b]⟩ : Shape) .f32)
    (h : (⟨2, ![a, b]⟩ : Shape).Transposes [1, 0] ⟨2, ![b, a]⟩) :
    transpose ⟨2, ![b, a]⟩ [1, 0] w h = tr w := by
  funext i
  obtain ⟨p, q, rfl⟩ : ∃ (p : Fin b) (q : Fin a), i = ix2 p q := ⟨i 0, i 1, eq_ix2 i⟩
  rw [transpose_ix2_apply, tr_apply]

/-- The plain contraction of two matrices is their product: entry `(p, q)` is `∑ k, a[p, k] · b[k, q]`. -/
theorem dot_eq_mm (M K N : ℕ) (prec : Option ContractPrecision) (a : FVec Ideal (⟨2, ![M, K]⟩ : Shape) .f32)
    (b : FVec Ideal (⟨2, ![K, N]⟩ : Shape) .f32) :
    Host.dotGeneral (DotDims.plain M K N) prec a b = mm a b := by
  funext i
  obtain ⟨p, q, rfl⟩ : ∃ (p : Fin M) (q : Fin N), i = ix2 p q := ⟨i 0, i 1, eq_ix2 i⟩
  rw [dotGeneral_plain_apply, mm_apply]

/-! ## The four printed contractions are plain -/

private theorem dotA_eq : dot_S10000x128_S128x32_S10000x32_1_0_0_1_n_n = DotDims.plain 10000 128 32 := rfl
private theorem dotB_eq : dot_S10000x10000_S10000x32_S10000x32_1_0_0_1_n_n = DotDims.plain 10000 10000 32 := rfl
private theorem dotC_eq : dot_S10000x32_S32x16_S10000x16_1_0_0_1_n_n = DotDims.plain 10000 32 16 := rfl
private theorem dotD_eq : dot_S10000x10000_S10000x16_S10000x16_1_0_0_1_n_n = DotDims.plain 10000 10000 16 := rfl

/-! ## The reference's term -/

/-- The reference's result is the network of its arguments. -/
theorem refTerm_eq (x : FVec Ideal S10000x128 .f32) (adj : FVec Ideal S10000x10000 .f32) (W1 : FVec Ideal S32x128 .f32)
    (b1 : FVec Ideal S32 .f32) (W2 : FVec Ideal S16x32 .f32) (b2 : FVec Ideal S16 .f32) :
    refTerm (F := Ideal) x adj W1 b1 W2 b2 = G x adj W1 b1 W2 b2 := by
  unfold refTerm G feat Gcn.hidden proj agg
  dsimp only
  rw [dotA_eq, dotB_eq, dotC_eq, dotD_eq]
  rw [hostLin_eq, hostLin_eq, dot_eq_mm, dot_eq_mm, nan2num_eq, nan2num_eq, nan2num_eq, transpose_eq_tr, transpose_eq_tr,
    hostRelu_eq]

end Cert.ReferenceIdeal.Hand

end
-- ==== Proof.lean ====
/-
  The certificate of a two-layer dense graph convolution: a Pallas kernel of two pallas_calls against its jnp reference,

      out = n2n (adj · (relu (n2n (adj · (n2n x · W1ᵀ + b1))) · W2ᵀ + b2)),

  where `n2n` is `nan_to_num(·, nan = 0, posinf = 1, neginf = 0)`.

  The kernel program transposes the two weights and lays the two biases as rows on the host, then runs two kernel
  regions over the 25 blocks of 400 adjacency rows. The first region computes the feature matrix n2n x · W1ᵀ + b1 once,
  at its first grid point, keeps it in a scratch buffer for the other points, and writes for each block the rows of
  B = relu (n2n (adj · A)) · W2ᵀ + b2. The second region writes for each block the rows of n2n (adj · B). Neither region
  tiles a contraction, so on the extended reals each entry is literally the same sum as the reference's; no algebraic
  law and no finiteness of the inputs is used.

  Frames: each kernel program's run goes through the several-regions launch of the pipeline library, each region's
  body obligation proved by symbolic execution of the kernel function (the first region's invariant carries the scratch
  at the feature matrix from the second point on); the reference is a straight line of host operations once its
  outlined functions are unfolded. The idealization rewrote nothing, so `preserves` is `True`.
-/
import proofs.«164597_g45457933861167_cont_8to1c4_294_3_alg».proof.Defs
import proofs.«164597_g45457933861167_cont_8to1c4_294_3_alg».proof.Proof.Gen.Kernel
import proofs.«164597_g45457933861167_cont_8to1c4_294_3_alg».proof.Proof.Gen.KernelIdeal
import proofs.«164597_g45457933861167_cont_8to1c4_294_3_alg».proof.Proof.Gen.ReferenceIdeal
import proofs.«164597_g45457933861167_cont_8to1c4_294_3_alg».proof.Proof.Gen.Pre_finite_inputs
import proofs.«164597_g45457933861167_cont_8to1c4_294_3_alg».proof.Proof.K.Run
import proofs.«164597_g45457933861167_cont_8to1c4_294_3_alg».proof.Proof.KI.Run
import proofs.«164597_g45457933861167_cont_8to1c4_294_3_alg».proof.Proof.KI.Value
import proofs.«164597_g45457933861167_cont_8to1c4_294_3_alg».proof.Proof.Ref.Run
import proofs.«164597_g45457933861167_cont_8to1c4_294_3_alg».proof.Proof.Ref.Value

noncomputable section

namespace Cert.Proof

open Idealize.ShloMosaic Idealize.SL.Sem

/-- The word-level kernel program runs and leaves its arguments unchanged. -/
theorem frame_k : Cert.frame_Kernel := fun m ρ _ => Cert.Kernel.Hand.frame (F := Bits) m ρ

/-- The idealized kernel program runs and leaves its arguments unchanged. -/
theorem frame_ki : Cert.frame_KernelIdeal := fun m ρ _ => Cert.KernelIdeal.Hand.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- On the extended reals the kernel program's result array is the network `G` of its launched arguments
    (`final_v0`), the reference's result is its composed term, which is `G` of its arguments (`refTerm_eq`), and the
    arguments agree. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Hand.final_v0 m c), (h c).2⟩)
      (Cert.KernelIdeal.Hand.run_value (F := Ideal) m ρ), ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Hand.refTerm_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
